-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S200000x256 : Shape := ⟨2, ![200000, 256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S257x1 : Shape := ⟨2, ![257, 1]⟩
abbrev S1 : Shape := ⟨1, ![1]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S257x1 : S_.BroadcastsInDim S257x1 (![] : Fin 0 → Fin S257x1.rank)
  reducesTo_S257x1_S_d0_1 : S257x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S256 .f32) (main_arg20 : FVec F S257x1 .f32) (main_arg21 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S257x1 .f32 := Host.absf main_arg20
  let main_cst_36 : FVec F S_ .f32 := constant S_ .f32 0x7F800000#32
  let main_v95 : FVec F S257x1 .f32 := broadcastInDim S257x1 ![] bcast_S_S257x1 main_cst_36
  let main_v96 : IVec S257x1 1 := cmpf .olt main_v94 main_v95
  let main_c_37 : IVec S_ 1 := constantI S_ 1 1#1
  let main_v97 : IVec S_ 1 := (fun x v => Host.reduce IntOp.andi x v reducesTo_S257x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S256 .f32) (main_arg16 : FVec F S256 .f32) (main_arg17 : FVec F S256 .f32) (main_arg18 : FVec F S256 .f32) (main_arg19 : FVec F S256 .f32) (main_arg20 : FVec F S257x1 .f32) (main_arg21 : FVec F S1 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S512 .f32) (main_arg13 : FVec F S512 .f32) (main_arg14 : FVec F S512x256 .f32) (main_arg15 : FVec F S256 .f32) (main_arg16 : FVec F S256 .f32) (main_arg17 : FVec F S256 .f32) (main_arg18 : FVec F S256 .f32) (main_arg19 : FVec F S256 .f32) (main_arg20 : FVec F S257x1 .f32) (main_arg21 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x256 .f32 := Host.absf main_arg14
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S1024x512 .f32) (main_arg9 : FVec F S512 .f32) (main_arg10 : FVec F S512 .f32) (main_arg11 : FVec F S512 .f32) (main_arg12 : FVec F S512 .f32) (main_arg13 : FVec F S512 .f32) (main_arg14 : FVec F S512x256 .f32) (main_arg15 : FVec F S256 .f32) (main_arg16 : FVec F S256 .f32) (main_arg17 : FVec F S256 .f32) (main_arg18 : FVec F S256 .f32) (main_arg19 : FVec F S256 .f32) (main_arg20 : FVec F S257x1 .f32) (main_arg21 : FVec F S1 .f32) (main_v33 : IVec S_ 1) : IVec S_ 1 :=
  let main_v34 : FVec F S1024x512 .f32 := Host.absf main_arg8
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S1024 .f32) (main_arg6 : FVec F S1024 .f32) (main_arg7 : FVec F S1024 .f32) (main_arg8 : FVec F S1024x512 .f32) (main_arg9 : FVec F S512 .f32) (main_arg10 : FVec F S512 .f32) (main_arg11 : FVec F S512 .f32) (main_arg12 : FVec F S512 .f32) (main_arg13 : FVec F S512 .f32) (main_arg14 : FVec F S512x256 .f32) (main_arg15 : FVec F S256 .f32) (main_arg16 : FVec F S256 .f32) (main_arg17 : FVec F S256 .f32) (main_arg18 : FVec F S256 .f32) (main_arg19 : FVec F S256 .f32) (main_arg20 : FVec F S257x1 .f32) (main_arg21 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : IVec S16384x2 32) (main_arg1 : FVec F S200000x256 .f32) (main_arg2 : FVec F S512x1024 .f32) (main_arg3 : FVec F S1024 .f32) (main_arg4 : FVec F S1024 .f32) (main_arg5 : FVec F S1024 .f32) (main_arg6 : FVec F S1024 .f32) (main_arg7 : FVec F S1024 .f32) (main_arg8 : FVec F S1024x512 .f32) (main_arg9 : FVec F S512 .f32) (main_arg10 : FVec F S512 .f32) (main_arg11 : FVec F S512 .f32) (main_arg12 : FVec F S512 .f32) (main_arg13 : FVec F S512 .f32) (main_arg14 : FVec F S512x256 .f32) (main_arg15 : FVec F S256 .f32) (main_arg16 : FVec F S256 .f32) (main_arg17 : FVec F S256 .f32) (main_arg18 : FVec F S256 .f32) (main_arg19 : FVec F S256 .f32) (main_arg20 : FVec F S257x1 .f32) (main_arg21 : FVec F S1 .f32) : IVec S_ 1 :=
  let main_v0 : FVec F S200000x256 .f32 := Host.absf main_arg1
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x2 : Shape := ⟨2, ![16384, 2]⟩
abbrev S200000x256 : Shape := ⟨2, ![200000, 256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S257x1 : Shape := ⟨2, ![257, 1]⟩
abbrev S1 : Shape := ⟨1, ![1]⟩
abbrev S2 : Shape := ⟨1, ![2]⟩
abbrev S1x2 : Shape := ⟨2, ![1, 2]⟩
abbrev S_ : Shape := ⟨0, ![]⟩
abbrev S16384x2x1 : Shape := ⟨3, ![16384, 2, 1]⟩
abbrev S16384x2x256 : Shape := ⟨3, ![16384, 2, 256]⟩
abbrev S16384x512 : Shape := ⟨2, ![16384, 512]⟩
abbrev S1x1 : Shape := ⟨2, ![1, 1]⟩
abbrev S256x1 : Shape := ⟨2, ![256, 1]⟩
abbrev S1x256 : Shape := ⟨2, ![1, 256]⟩
abbrev S1x1024 : Shape := ⟨2, ![1, 1024]⟩
abbrev S1x512 : Shape := ⟨2, ![1, 512]⟩
abbrev S16384x1 : Shape := ⟨2, ![16384, 1]⟩
abbrev S512x512 : Shape := ⟨2, ![512, 512]⟩
abbrev S512x1 : Shape := ⟨2, ![512, 1]⟩

abbrev nBuf : Space → Nat
  | .hbm => 63
  | .vmem => 25
  | .smem => 0
  | _ => 0

abbrev bufTy : (tb : Table) → Fin (tcTables nBuf tb) → BufTy
  | .hbm, ⟨0, _⟩ => ⟨S16384x2, .i32⟩
  | .hbm, ⟨1, _⟩ => ⟨S200000x256, .f32⟩
  | .hbm, ⟨2, _⟩ => ⟨S512x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S257x1, .f32⟩
  | .hbm, ⟨21, _⟩ => ⟨S1, .f32⟩
  | .hbm, ⟨22, _⟩ => ⟨S2, .i32⟩
  | .hbm, ⟨23, _⟩ => ⟨S1x2, .i32⟩
  | .hbm, ⟨24, _⟩ => ⟨S16384x2, .i32⟩
  | .hbm, ⟨25, _⟩ => ⟨S16384x2, .i32⟩
  | .hbm, ⟨26, _⟩ => ⟨S_, .i32⟩
  | .hbm, ⟨27, _⟩ => ⟨S16384x2, .i32⟩
  | .hbm, ⟨28, _⟩ => ⟨S16384x2, .i1⟩
  | .hbm, ⟨29, _⟩ => ⟨S_, .i32⟩
  | .hbm, ⟨30, _⟩ => ⟨S16384x2, .i32⟩
  | .hbm, ⟨31, _⟩ => ⟨S16384x2, .i32⟩
  | .hbm, ⟨32, _⟩ => ⟨S16384x2, .i32⟩
  | .hbm, ⟨33, _⟩ => ⟨S16384x2x1, .i32⟩
  | .hbm, ⟨34, _⟩ => ⟨S16384x2x256, .f32⟩
  | .hbm, ⟨35, _⟩ => ⟨S16384x512, .f32⟩
  | .hbm, ⟨36, _⟩ => ⟨S1x1, .f32⟩
  | .hbm, ⟨37, _⟩ => ⟨S_, .f32⟩
  | .hbm, ⟨38, _⟩ => ⟨S1x1, .f32⟩
  | .hbm, ⟨39, _⟩ => ⟨S256x1, .f32⟩
  | .hbm, ⟨40, _⟩ => ⟨S256, .f32⟩
  | .hbm, ⟨41, _⟩ => ⟨S1x256, .f32⟩
  | .hbm, ⟨42, _⟩ => ⟨S_, .f32⟩
  | .hbm, ⟨43, _⟩ => ⟨S1x1, .f32⟩
  | .hbm, ⟨44, _⟩ => ⟨S512x1024, .bf16⟩
  | .hbm, ⟨45, _⟩ => ⟨S1024x512, .bf16⟩
  | .hbm, ⟨46, _⟩ => ⟨S512x256, .bf16⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S16384x1, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x256, .bf16⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x1, .f32⟩
  | .local _ .vmem, ⟨22, _⟩ => ⟨S1x1, .f32⟩
  | .local _ .vmem, ⟨23, _⟩ => ⟨S512x1, .f32⟩
  | .local _ .vmem, ⟨24, _⟩ => ⟨S512x1, .f32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  shapeCasts_S16384x2x256_S16384x512 : S16384x2x256.ShapeCasts S16384x512
  slices_S257x1_S1x1_0_0 : S257x1.Slices ![0, 0] S1x1
  shapeCasts_S1x1_S_ : S1x1.ShapeCasts S_
  shapeCasts_S_S1x1 : S_.ShapeCasts S1x1
  slices_S257x1_S256x1_1_0 : S257x1.Slices ![1, 0] S256x1
  shapeCasts_S256x1_S256 : S256x1.ShapeCasts S256
  shapeCasts_S256_S1x256 : S256.ShapeCasts S1x256
  shapeCasts_S1_S_ : S1.ShapeCasts S_
  bitsLt_bf16_f32 : FTy.bits .bf16 < FTy.bits .f32
  shapeCasts_S1024_S1x1024 : S1024.ShapeCasts S1x1024
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S512x512_o0_0_S512x256 : S512x512.Slices ![0, 0] S512x256
  slices_S512x512_o0_256_S512x256 : S512x512.Slices ![0, 256] S512x256
  reduces_S512x256_S512 : S512x256.Reduces [1] S512
  shapeCasts_S512_S512x1 : S512.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1_S512x1_0_0 : ∀ a, (![0, 0] : Fin 2 → Nat) a + S512x1.size a ≤ S512x1.size a
  h_S512x1 : 0 < S512x1.numel
  gather_S200000x256_S16384x2x1_S16384x2x256_2_0_n_n_0_2_1256_wf : GatherDims.WF S200000x256 S16384x2x1 S16384x2x256 [2] [0] [] [0] [] 2 ![1, 256]
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S512x256.size a
  hwx0_13 : ∀ i : grid0.Coords, EltTy.bits .bf16 = 32 ∨ (Rect.block (s := S512x256) S512x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1.size a ≤ S1x1.size a
  hwx0_21 : ∀ i : grid0.Coords, EltTy.bits .f32 = 32 ∨ (Rect.block (s := S1x1) S1x1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S512x1.size a ≤ S16384x1.size a
  hwx0_22 : ∀ i : grid0.Coords, EltTy.bits .f32 = 32 ∨ (Rect.block (s := S16384x1) S512x1.size (cc0_transform_22 i) (hinb0_22 i)).WholeWords (EltTy.packing .f32)

variable [Facts₀]

def gather_S200000x256_S16384x2x1_S16384x2x256_2_0_n_n_0_2_1256 : GatherDims S200000x256 S16384x2x1 S16384x2x256 where
  offsetDims := [2]
  collapsedSliceDims := [0]
  operandBatchingDims := []
  startIndicesBatchingDims := []
  startIndexMap := [0]
  indexVectorDim := 2
  sliceSizes := ![1, 256]
  wf := gather_S200000x256_S16384x2x1_S16384x2x256_2_0_n_n_0_2_1256_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v10) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S512x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v32) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v36) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v16) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v13) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v18) S1x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v37) S512x1.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S16384x2 : Shape := ⟨2, ![16384, 2]⟩
abbrev S200000x256 : Shape := ⟨2, ![200000, 256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S257x1 : Shape := ⟨2, ![257, 1]⟩
abbrev S1 : Shape := ⟨1, ![1]⟩
abbrev S2 : Shape := ⟨1, ![2]⟩
abbrev S1x2 : Shape := ⟨2, ![1, 2]⟩
abbrev S_ : Shape := ⟨0, ![]⟩
abbrev S16384x2x1 : Shape := ⟨3, ![16384, 2, 1]⟩
abbrev S16384x2x256 : Shape := ⟨3, ![16384, 2, 256]⟩
abbrev S16384x1x256 : Shape := ⟨3, ![16384, 1, 256]⟩
abbrev S16384x256 : Shape := ⟨2, ![16384, 256]⟩
abbrev S16384 : Shape := ⟨1, ![16384]⟩
abbrev S16384x1 : Shape := ⟨2, ![16384, 1]⟩
abbrev S16384x512 : Shape := ⟨2, ![16384, 512]⟩
abbrev S16384x1024 : Shape := ⟨2, ![16384, 1024]⟩
abbrev S1x1024 : Shape := ⟨2, ![1, 1024]⟩
abbrev S1x512 : Shape := ⟨2, ![1, 512]⟩
abbrev S1x256 : Shape := ⟨2, ![1, 256]⟩
abbrev S16384x257 : Shape := ⟨2, ![16384, 257]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S200000x256, .f32⟩
  | .hbm, ⟨2, _⟩ => ⟨S512x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S257x1, .f32⟩
  | .hbm, ⟨21, _⟩ => ⟨S1, .f32⟩
  | .hbm, ⟨22, _⟩ => ⟨S2, .i32⟩
  | .hbm, ⟨23, _⟩ => ⟨S1x2, .i32⟩
  | .hbm, ⟨24, _⟩ => ⟨S16384x2, .i32⟩
  | .hbm, ⟨25, _⟩ => ⟨S16384x2, .i32⟩
  | .hbm, ⟨26, _⟩ => ⟨S_, .i32⟩
  | .hbm, ⟨27, _⟩ => ⟨S16384x2, .i32⟩
  | .hbm, ⟨28, _⟩ => ⟨S16384x2, .i1⟩
  | .hbm, ⟨29, _⟩ => ⟨S_, .i32⟩
  | .hbm, ⟨30, _⟩ => ⟨S16384x2, .i32⟩
  | .hbm, ⟨31, _⟩ => ⟨S16384x2, .i32⟩
  | .hbm, ⟨32, _⟩ => ⟨S16384x2, .i32⟩
  | .hbm, ⟨33, _⟩ => ⟨S16384x2x1, .i32⟩
  | .hbm, ⟨34, _⟩ => ⟨S16384x2x256, .f32⟩
  | .hbm, ⟨35, _⟩ => ⟨S16384x1x256, .f32⟩
  | .hbm, ⟨36, _⟩ => ⟨S16384x256, .f32⟩
  | .hbm, ⟨37, _⟩ => ⟨S16384x1x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x512, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x512, .f32⟩
  | .hbm, ⟨68, _⟩ => ⟨S1x512, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S1x512, .f32⟩
  | .hbm, ⟨75, _⟩ => ⟨S16384x512, .f32⟩
  | .hbm, ⟨76, _⟩ => ⟨S16384x512, .f32⟩
  | .hbm, ⟨77, _⟩ => ⟨S1x512, .f32⟩
  | .hbm, ⟨78, _⟩ => ⟨S16384x512, .f32⟩
  | .hbm, ⟨79, _⟩ => ⟨S16384x512, .f32⟩
  | .hbm, ⟨80, _⟩ => ⟨S_, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S1x512, .f32⟩
  | .hbm, ⟨85, _⟩ => ⟨S16384x512, .f32⟩
  | .hbm, ⟨86, _⟩ => ⟨S16384x512, .f32⟩
  | .hbm, ⟨87, _⟩ => ⟨S1x512, .f32⟩
  | .hbm, ⟨88, _⟩ => ⟨S16384x512, .f32⟩
  | .hbm, ⟨89, _⟩ => ⟨S16384x512, .f32⟩
  | .hbm, ⟨90, _⟩ => ⟨S16384x256, .f32⟩
  | .hbm, ⟨91, _⟩ => ⟨S1x256, .f32⟩
  | .hbm, ⟨92, _⟩ => ⟨S16384x256, .f32⟩
  | .hbm, ⟨93, _⟩ => ⟨S16384x256, .f32⟩
  | .hbm, ⟨94, _⟩ => ⟨S_, .f32⟩
  | .hbm, ⟨95, _⟩ => ⟨S16384x256, .f32⟩
  | .hbm, ⟨96, _⟩ => ⟨S16384x256, .f32⟩
  | .hbm, ⟨97, _⟩ => ⟨S1x256, .f32⟩
  | .hbm, ⟨98, _⟩ => ⟨S16384x256, .f32⟩
  | .hbm, ⟨99, _⟩ => ⟨S16384x256, .f32⟩
  | .hbm, ⟨100, _⟩ => ⟨S1x256, .f32⟩
  | .hbm, ⟨101, _⟩ => ⟨S16384x256, .f32⟩
  | .hbm, ⟨102, _⟩ => ⟨S16384x256, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S256, .f32⟩
  | .hbm, ⟨107, _⟩ => ⟨S1x256, .f32⟩
  | .hbm, ⟨108, _⟩ => ⟨S16384x256, .f32⟩
  | .hbm, ⟨109, _⟩ => ⟨S16384x256, .f32⟩
  | .hbm, ⟨110, _⟩ => ⟨S1x256, .f32⟩
  | .hbm, ⟨111, _⟩ => ⟨S16384x256, .f32⟩
  | .hbm, ⟨112, _⟩ => ⟨S16384x256, .f32⟩
  | .hbm, ⟨113, _⟩ => ⟨S16384x257, .f32⟩
  | .hbm, ⟨114, _⟩ => ⟨S16384x1, .f32⟩
  | .hbm, ⟨115, _⟩ => ⟨S1x1, .f32⟩
  | .hbm, ⟨116, _⟩ => ⟨S16384x1, .f32⟩
  | .hbm, ⟨117, _⟩ => ⟨S16384x1, .f32⟩
  | .hbm, ⟨118, _⟩ => ⟨S_, .f32⟩
  | .hbm, ⟨119, _⟩ => ⟨S16384x1, .f32⟩
  | .hbm, ⟨120, _⟩ => ⟨S16384x1, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call0_cst : Ref sig .tc := ⟨.hbm, 48, rfl⟩
abbrev main_call0_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call1_cst : Ref sig .tc := ⟨.hbm, 71, rfl⟩
abbrev main_call1_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_3 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_cst : Ref sig .tc := ⟨.hbm, 94, rfl⟩
abbrev main_call2_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_4 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call3_cst : Ref sig .tc := ⟨.hbm, 118, rfl⟩
abbrev main_call3_v0 : Ref sig .tc := ⟨.hbm, 119, rfl⟩
abbrev main_v83 : Ref sig .tc := ⟨.hbm, 120, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  slices_S16384x2x256_S16384x1x256_0_0_0 : S16384x2x256.Slices ![0, 0, 0] S16384x1x256
  shapeCasts_S16384x1x256_S16384x256 : S16384x1x256.ShapeCasts S16384x256
  slices_S16384x2x256_S16384x1x256_0_1_0 : S16384x2x256.Slices ![0, 1, 0] S16384x1x256
  reducesTo_S16384x256_S16384_d1 : S16384x256.ReducesTo [1] S16384
  h_S_ : 0 < S_.numel
  bcast_S16384_S16384x1_0 : S16384.BroadcastsInDim S16384x1 (![0] : Fin 1 → Fin S16384x1.rank)
  shapeCasts_S16384x2x256_S16384x512 : S16384x2x256.ShapeCasts S16384x512
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1024 : S_.BroadcastsInDim S1024 (![] : Fin 0 → Fin S1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S_S512 : S_.BroadcastsInDim S512 (![] : Fin 0 → Fin S512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S_S256 : S_.BroadcastsInDim S256 (![] : Fin 0 → Fin S256.rank)
  concatenates_S16384x1_S16384x256_S16384x257_d1 : Shape.Concatenates [S16384x1, S16384x256] S16384x257 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S200000x256_S16384x2x1_S16384x2x256_2_0_n_n_0_2_1256_wf : GatherDims.WF S200000x256 S16384x2x1 S16384x2x256 [2] [0] [] [0] [] 2 ![1, 256]
  dot_S16384x512_S512x1024_S16384x1024_1_0_0_1_n_n_wf : DotDims.WF S16384x512 S512x1024 S16384x1024 [1] [0] [0] [1] [] []
  dot_S16384x1024_S1024x512_S16384x512_1_0_0_1_n_n_wf : DotDims.WF S16384x1024 S1024x512 S16384x512 [1] [0] [0] [1] [] []
  dot_S16384x512_S512x256_S16384x256_1_0_0_1_n_n_wf : DotDims.WF S16384x512 S512x256 S16384x256 [1] [0] [0] [1] [] []
  dot_S16384x257_S257x1_S16384x1_1_0_0_1_n_n_wf : DotDims.WF S16384x257 S257x1 S16384x1 [1] [0] [0] [1] [] []

variable [Facts₀]

def gather_S200000x256_S16384x2x1_S16384x2x256_2_0_n_n_0_2_1256 : GatherDims S200000x256 S16384x2x1 S16384x2x256 where
  offsetDims := [2]
  collapsedSliceDims := [0]
  operandBatchingDims := []
  startIndicesBatchingDims := []
  startIndexMap := [0]
  indexVectorDim := 2
  sliceSizes := ![1, 256]
  wf := gather_S200000x256_S16384x2x1_S16384x2x256_2_0_n_n_0_2_1256_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x257_S257x1_S16384x1_1_0_0_1_n_n : DotDims S16384x257 S257x1 S16384x1 where
  lhsContracting := [1]
  rhsContracting := [0]
  lhsNonContracting := [0]
  rhsNonContracting := [1]
  lhsBatch := []
  rhsBatch := []
  wf := dot_S16384x257_S257x1_S16384x1_1_0_0_1_n_n_wf

class Facts : Prop extends Facts₀ where

variable [Facts]
-- ==== Proof.Spec.lean ====
/-
  The function both programs compute, one batch row at a time.

  A row `h` of the gathered embeddings has 512 entries: the user embedding in the first 256, the item embedding in
  the last 256. The matrix-factorisation score is their inner product. The row then passes through three layers,
  each a dense map followed by `max · 0` and an affine normalisation
  `g · (z − μ) · (v + ε)^(-1/2) + β` with the running statistics `μ, v`. The answer is
  `max (mf · w₀ + ⟨h₃, w₁..₂₅₆⟩ + b) 0`, where `w` is the last layer's 257-vector.
  Nothing here depends on how the rows are tiled into blocks or on the order in which a sum is taken.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The normalisation's `ε`: the single-precision word both programs add to the running variance. -/
abbrev epsBN : EReal := Ideal.ofBits .f32 0x3727C5AC#32

/-- One layer at output feature `n` of one row `x`: the dense map, the rectifier, the normalisation. -/
def layerRow {K N : ℕ} (x : Fin K → EReal) (W : Fin K → Fin N → EReal) (b g be mu v : Fin N → EReal) (n : Fin N) : EReal :=
  g n * (max ((∑ k : Fin K, x k * W k n) + b n) 0 - mu n) * Ideal.rsqrt (v n + epsBN) + be n

/-- The weights of the whole network, entry by entry. -/
structure Params where
  W1 : Fin 512 → Fin 1024 → EReal
  b1 : Fin 1024 → EReal
  g1 : Fin 1024 → EReal
  be1 : Fin 1024 → EReal
  m1 : Fin 1024 → EReal
  v1 : Fin 1024 → EReal
  W2 : Fin 1024 → Fin 512 → EReal
  b2 : Fin 512 → EReal
  g2 : Fin 512 → EReal
  be2 : Fin 512 → EReal
  m2 : Fin 512 → EReal
  v2 : Fin 512 → EReal
  W3 : Fin 512 → Fin 256 → EReal
  b3 : Fin 256 → EReal
  g3 : Fin 256 → EReal
  be3 : Fin 256 → EReal
  m3 : Fin 256 → EReal
  v3 : Fin 256 → EReal
  /-- the score's weight: entry 0 of the last layer's vector -/
  wo0 : EReal
  /-- the hidden features' weights: entries 1 … 256 of the last layer's vector -/
  wov : Fin 256 → EReal
  bo : EReal

/-- The three hidden layers of one row. -/
def hidden1 (P : Params) (h : Fin 512 → EReal) : Fin 1024 → EReal := layerRow h P.W1 P.b1 P.g1 P.be1 P.m1 P.v1
def hidden2 (P : Params) (h : Fin 512 → EReal) : Fin 512 → EReal := layerRow (hidden1 P h) P.W2 P.b2 P.g2 P.be2 P.m2 P.v2
def hidden3 (P : Params) (h : Fin 512 → EReal) : Fin 256 → EReal := layerRow (hidden2 P h) P.W3 P.b3 P.g3 P.be3 P.m3 P.v3

/-- The inner product of a row's two halves. -/
def mfRow (h : Fin 512 → EReal) : EReal :=
  ∑ d : Fin 256, h ⟨d.val, by have := d.isLt; omega⟩ * h ⟨256 + d.val, by have := d.isLt; omega⟩

/-- One row's answer. -/
def outRow (P : Params) (h : Fin 512 → EReal) : EReal :=
  max ((mfRow h * P.wo0 + ∑ k : Fin 256, hidden3 P h k * P.wov k) + P.bo) 0

/-- The weights read off the argument arrays. The last layer's vector is split into its first entry and the rest. -/
def paramsOf
    (a2 : (⟨2, ![512, 1024]⟩ : Shape).Idx → EReal) (a3 a4 a5 a6 a7 : (⟨1, ![1024]⟩ : Shape).Idx → EReal)
    (a8 : (⟨2, ![1024, 512]⟩ : Shape).Idx → EReal) (a9 a10 a11 a12 a13 : (⟨1, ![512]⟩ : Shape).Idx → EReal)
    (a14 : (⟨2, ![512, 256]⟩ : Shape).Idx → EReal) (a15 a16 a17 a18 a19 : (⟨1, ![256]⟩ : Shape).Idx → EReal)
    (a20 : (⟨2, ![257, 1]⟩ : Shape).Idx → EReal) (a21 : (⟨1, ![1]⟩ : Shape).Idx → EReal) : Params where
  W1 := fun k n => a2 (ix2 k n)
  b1 := fun n => a3 (ix1 n)
  g1 := fun n => a4 (ix1 n)
  be1 := fun n => a5 (ix1 n)
  m1 := fun n => a6 (ix1 n)
  v1 := fun n => a7 (ix1 n)
  W2 := fun k n => a8 (ix2 k n)
  b2 := fun n => a9 (ix1 n)
  g2 := fun n => a10 (ix1 n)
  be2 := fun n => a11 (ix1 n)
  m2 := fun n => a12 (ix1 n)
  v2 := fun n => a13 (ix1 n)
  W3 := fun k n => a14 (ix2 k n)
  b3 := fun n => a15 (ix1 n)
  g3 := fun n => a16 (ix1 n)
  be3 := fun n => a17 (ix1 n)
  m3 := fun n => a18 (ix1 n)
  v3 := fun n => a19 (ix1 n)
  wo0 := a20 (ix2 (0 : Fin 257) (0 : Fin 1))
  wov := fun k => a20 (ix2 (k.succ : Fin 257) (0 : Fin 1))
  bo := a21 (ix1 (0 : Fin 1))

/-- The whole result: row `i 0` of the gathered embeddings `h` through the network. -/
def G (h : (⟨2, ![16384, 512]⟩ : Shape).Idx → EReal) (P : Params) : (⟨2, ![16384, 1]⟩ : Shape).Idx → EReal :=
  fun i => outRow P (fun j => h (ix2 (i 0) j))

/-- A sum over 257 terms is its first term plus the sum of the other 256: how the reference's one dot product with
    the 257-vector splits into the score's term and the hidden features' terms. -/
theorem sum_257_split (f : Fin 257 → EReal) : ∑ j : Fin 257, f j = f 0 + ∑ k : Fin 256, f k.succ :=
  Fin.sum_univ_succ f

end Cert.Mlp

end
-- ==== Proof.KerDefs.lean ====
/-
  The kernel's side of the vocabulary: the gathered embedding rows as the kernel's program computes them before
  the launch, and the network's weights as one grid point finds them in its blocks. Every weight block is the
  whole (row-shaped) array, so the weights do not depend on the grid point.
-/
import proofs.«137861_j89111981457842_1_alg».proof.Proof.Gen.KernelIdeal
import proofs.«137861_j89111981457842_1_alg».proof.Proof.Spec

noncomputable section

namespace Cert.KernelIdeal.KerVal

open Cert.KernelIdeal Cert.KernelIdeal.Facts₀ Cert.KernelIdeal.Facts Idealize.ShloMosaic Idealize.ShloMosaic.ValueIdx

variable {F : FTy → Type} [FloatOps F]

/-- The row indices into the embedding table: `x + [0, 100000]`, a negative entry moved up by the table's 200000 rows,
    with a trailing unit axis. -/
def gatherIdx (x : (⟨S16384x2, .i32⟩ : BufTy).Contents (Elt F)) : (⟨S16384x2x1, .i32⟩ : BufTy).Contents (Elt F) :=
  broadcastInDim S16384x2x1 ![0, 1] bcast_S16384x2_S16384x2x1_0_1
    (select
      (cmpi .slt
        (addi x (broadcastInDim S16384x2 ![0, 1] bcast_S1x2_S16384x2_0_1 (broadcastInDim S1x2 ![1] bcast_S2_S1x2_1 (fun i => lit0 (S2.rowMajor i)))))
        (broadcastInDim S16384x2 ![] bcast_S_S16384x2 (constantI S_ 32 0#32)))
      (addi
        (addi x (broadcastInDim S16384x2 ![0, 1] bcast_S1x2_S16384x2_0_1 (broadcastInDim S1x2 ![1] bcast_S2_S1x2_1 (fun i => lit0 (S2.rowMajor i)))))
        (broadcastInDim S16384x2 ![] bcast_S_S16384x2 (constantI S_ 32 200000#32)))
      (addi x (broadcastInDim S16384x2 ![0, 1] bcast_S1x2_S16384x2_0_1 (broadcastInDim S1x2 ![1] bcast_S2_S1x2_1 (fun i => lit0 (S2.rowMajor i))))))

/-- The gathered embeddings, `[16384, 2, 256]`. -/
def gathered (x : (⟨S16384x2, .i32⟩ : BufTy).Contents (Elt F)) (emb : (⟨S200000x256, .f32⟩ : BufTy).Contents (Elt F)) :
    (⟨S16384x2x256, .f32⟩ : BufTy).Contents (Elt F) :=
  Host.gather gather_S200000x256_S16384x2x1_S16384x2x256_2_0_n_n_0_2_1256 emb (gatherIdx x)

/-- The same laid out as `[16384, 512]`: the array the kernel's first window is cut from. -/
def rows (x : (⟨S16384x2, .i32⟩ : BufTy).Contents (Elt F)) (emb : (⟨S200000x256, .f32⟩ : BufTy).Contents (Elt F)) :
    (⟨S16384x512, .f32⟩ : BufTy).Contents (Elt F) :=
  shapeCast S16384x512 (gathered x emb) shapeCasts_S16384x2x256_S16384x512

/-- The weights as one grid point's blocks hold them: matrices entry by entry, the row-shaped vectors at row 0, the
    last layer's vector as its first entry (a `[1, 1]` block) and its other 256 (a `[1, 256]` block). -/
def blockParams (x1 : Vec Ideal S512x1024 .bf16) (x2 x3 x4 x5 x6 : Vec Ideal S1x1024 .f32)
    (x7 : Vec Ideal S1024x512 .bf16) (x8 x9 x10 x11 x12 : Vec Ideal S1x512 .f32)
    (x13 : Vec Ideal S512x256 .bf16) (x14 x15 x16 x17 x18 x19 : Vec Ideal S1x256 .f32)
    (x20 x21 : Vec Ideal S1x1 .f32) : Cert.Mlp.Params where
  W1 := fun k n => x1 (ix2 k n)
  b1 := fun n => x2 (ix2 (0 : Fin 1) n)
  g1 := fun n => x3 (ix2 (0 : Fin 1) n)
  be1 := fun n => x4 (ix2 (0 : Fin 1) n)
  m1 := fun n => x5 (ix2 (0 : Fin 1) n)
  v1 := fun n => x6 (ix2 (0 : Fin 1) n)
  W2 := fun k n => x7 (ix2 k n)
  b2 := fun n => x8 (ix2 (0 : Fin 1) n)
  g2 := fun n => x9 (ix2 (0 : Fin 1) n)
  be2 := fun n => x10 (ix2 (0 : Fin 1) n)
  m2 := fun n => x11 (ix2 (0 : Fin 1) n)
  v2 := fun n => x12 (ix2 (0 : Fin 1) n)
  W3 := fun k n => x13 (ix2 k n)
  b3 := fun n => x14 (ix2 (0 : Fin 1) n)
  g3 := fun n => x15 (ix2 (0 : Fin 1) n)
  be3 := fun n => x16 (ix2 (0 : Fin 1) n)
  m3 := fun n => x17 (ix2 (0 : Fin 1) n)
  v3 := fun n => x18 (ix2 (0 : Fin 1) n)
  wo0 := x20 (ix2 (0 : Fin 1) (0 : Fin 1))
  wov := fun k => x19 (ix2 (0 : Fin 1) k)
  bo := x21 (ix2 (0 : Fin 1) (0 : Fin 1))

end Cert.KernelIdeal.KerVal

end
-- ==== Proof.KerPay1.lean ====
/-
  The kernel body's first stretch read at one entry: the score of a block row, and the first layer's output at one
  feature of one block row, as the row functions of Spec.lean applied to that row of the input block.
-/
import proofs.«137861_j89111981457842_1_alg».proof.Proof.Gen.KernelIdeal.Skeleton
import proofs.«137861_j89111981457842_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerVal

open Cert.KernelIdeal Cert.KernelIdeal.Gen Idealize.ShloMosaic Idealize.ShloMosaic.ValueIdx Cert.Mlp

/-! ## The lane sum and the column view -/

/-- An `[a]` array viewed as an `[a, 1]` column reads, at `(i, u)`, the operand at `i`, whatever the unit coordinate
    `u`: both sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index `r` with lane `k` put back on the dropped axis is `(r, k)`. -/
theorem lift_lane (h : S512x256.Reduces [1] S512) (r : Fin 512) (k : Fin (S512x256.size 1)) :
    h.lift (ix1 r) k = ix2 r (⟨k.val, k.isLt⟩ : Fin 256) := by
  funext c; apply Fin.ext
  match c with
  | ⟨0, _⟩ => rfl
  | ⟨1, _⟩ => rfl

/-- The sum along the lanes of a `[512, 256]` block from the zero word, at row `r`: the sum of that row's 256 entries. -/
theorem laneSum_apply (src : FVec Ideal S512x256 .f32) (h : S512x256.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 256, src (ix2 r k) :=
  (Ideal.multiReduction_add_single src 0x00000000#32 h hφ hacc (ix1 r)).trans
    (Finset.sum_congr rfl fun k _ => congrArg src (lift_lane h r k))

/-! ## The first layer's matrix product -/

/-- Row coordinate of the left operand's index: the result's row (a free axis of the left operand). -/
theorem lhs_D1_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

/-- Column coordinate of the left operand's index: the contracted coordinate. -/
theorem lhs_D1_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q

/-- Row coordinate of the right operand's index: the contracted coordinate. -/
theorem rhs_D1_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q

/-- Column coordinate of the right operand's index: the result's column (a free axis of the right operand). -/
theorem rhs_D1_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The `[512, 512] × [512, 1024]` product into a zero accumulator, at entry `(r, n)`: the sum over the one contracted
    axis of the left operand's row `r` against the right operand's column `n`. The contraction index is its single
    coordinate, so the sum over contraction indices re-indexes to a sum over `Fin 512`. -/
theorem matmul1_apply (lhs : FVec Ideal S512x512 .bf16) (rhs : FVec Ideal S512x1024 .bf16) (r : Fin 512) (n : Fin 1024) :
    matmul dot_S512x512_S512x1024_S512x1024_1_0_0_1_n_n none lhs rhs (constant (F := Ideal) S512x1024 .f32 0x00000000#32) (ix2 r n)
      = ∑ k : Fin 512, lhs (ix2 r k) * rhs (ix2 k n) := by
  refine (Ideal.matmul_constant_zero_apply dot_S512x512_S512x1024_S512x1024_1_0_0_1_n_n none lhs rhs (ix2 r n)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r n) ((ValueIdx.contrEquiv1 dot_S512x512_S512x1024_S512x1024_1_0_0_1_n_n 512 rfl rfl).symm k) = ix2 r k :=
    funext fun a => Fin.ext (by
      match a with
      | ⟨0, _⟩ => exact lhs_D1_0 _ _
      | ⟨1, _⟩ => exact (lhs_D1_1 _ _).trans hk)
  have er : dot_S512x512_S512x1024_S512x1024_1_0_0_1_n_n.rhsIdx (ix2 r n) ((ValueIdx.contrEquiv1 dot_S512x512_S512x1024_S512x1024_1_0_0_1_n_n 512 rfl rfl).symm k) = ix2 k n :=
    funext fun a => Fin.ext (by
      match a with
      | ⟨0, _⟩ => exact (rhs_D1_0 _ _).trans hk
      | ⟨1, _⟩ => exact rhs_D1_1 _ _)
  rw [el, er]

/-! ## The two payloads -/

/-- The score of block row `p`: the inner product of the row's two halves. -/
theorem pay3_apply (x0 : Vec Ideal S512x512 .f32) (p : Fin 512) (u : Fin 1) :
    k0_pay3 (F := Ideal) x0 (ix2 p u) = mfRow (fun j => x0 (ix2 p j)) := by
  unfold k0_pay3 k0_pay2
  -- the column view reads the lane sum at row `p`; the lane sum is the sum over the 256 lanes of the product
  refine (shapeCast_a_a1_apply _ _ p u).trans ?_
  refine (laneSum_apply _ _ _ _ p).trans ?_
  unfold mfRow
  refine Finset.sum_congr rfl fun d _ => ?_
  -- lane `d` of the first half is entry `d` of the row, lane `d` of the second half is entry `256 + d`
  rw [mulf_apply, shapeCast_self]
  exact congrArg₂ (· * ·)
    (slice2_axis1_apply 0 x0 _ p d ⟨d.val, by have := d.isLt; omega⟩ (Nat.zero_add _).symm)
    (slice2_axis1_apply 256 x0 _ p d ⟨256 + d.val, by have := d.isLt; omega⟩ rfl)

/-- The first layer at block row `p`, feature `n`. (The payload takes the vectors in the order bias, scale, running mean,
    running variance, shift.) -/
theorem pay4_apply (x0 : Vec Ideal S512x512 .f32) (W : Vec Ideal S512x1024 .bf16) (b g mu v be : Vec Ideal S1x1024 .f32)
    (p : Fin 512) (n : Fin 1024) :
    k0_pay4 (F := Ideal) x0 W b g mu v be (ix2 p n)
      = layerRow (fun k => x0 (ix2 p k)) (fun k n => W (ix2 k n)) (fun n => b (ix2 (0 : Fin 1) n)) (fun n => g (ix2 (0 : Fin 1) n))
          (fun n => be (ix2 (0 : Fin 1) n)) (fun n => mu (ix2 (0 : Fin 1) n)) (fun n => v (ix2 (0 : Fin 1) n)) n := by
  unfold k0_pay4 k0_pay2
  -- the pointwise operations read entry by entry; a cast to the same shape is the identity
  simp only [truncf_apply, addf_apply, mulf_apply, subf_apply, maximumf_apply, broadcast_apply, shapeCast_self]
  -- the product is the sum over the contracted axis; each `[1, 1024]` row broadcast down the rows reads its entry `n`
  rw [matmul1_apply]
  simp only [broadcastTo_1b_ab_apply]
  unfold layerRow
  -- the zero splat is `0`; rounding to the narrower format is the identity over the extended reals, and the
  -- reciprocal square root of the row `v + ε` at entry `n` is that of `v n + ε`
  rw [Ideal.ofBits_def, Ideal.ofBits_zero_f32]
  rfl

end Cert.KernelIdeal.KerVal

end
-- ==== Proof.KerPay2.lean ====
/-
  The rest of the kernel body read at one entry: the second layer and the third layer's dense map and rectifier;
  the third layer's normalisation, the dot product with the last layer's vector, the bias and the final rectifier;
  and the whole body's result at block row `p` as `outRow` of that row of the input block.
-/
import proofs.«137861_j89111981457842_1_alg».proof.Proof.Gen.KernelIdeal.Skeleton
import proofs.«137861_j89111981457842_1_alg».proof.Proof.Spec
import proofs.«137861_j89111981457842_1_alg».proof.Proof.KerDefs
import proofs.«137861_j89111981457842_1_alg».proof.Proof.KerPay1
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerVal

open Cert.KernelIdeal Cert.KernelIdeal.Gen Idealize.ShloMosaic Idealize.ShloMosaic.ValueIdx Cert.Mlp

/-! ## The two matrix products as sums over the contracted axis -/

/-- The left operand's row coordinate is the result's row. -/
theorem lhs_d2_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

/-- The left operand's column coordinate is the contracted coordinate. -/
theorem lhs_d2_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q

/-- The right operand's row coordinate is the contracted coordinate. -/
theorem rhs_d2_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q

/-- The right operand's column coordinate is the result's column. -/
theorem rhs_d2_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The second layer's product at row `r`, column `n`: the sum over the 1024 contracted entries. -/
theorem matmul_d2_apply {φ₁ φ₂ : FTy} (lhs : FVec Ideal S512x1024 φ₁) (rhs : FVec Ideal S1024x512 φ₂) (r : Fin 512) (n : Fin 512) :
    matmul dot_S512x1024_S1024x512_S512x512_1_0_0_1_n_n none lhs rhs (constant S512x512 .f32 0x00000000#32) (ix2 r n)
      = ∑ k : Fin 1024, lhs (ix2 r k) * rhs (ix2 k n) := by
  refine (Ideal.matmul_constant_zero_apply dot_S512x1024_S1024x512_S512x512_1_0_0_1_n_n none lhs rhs (ix2 r n)).trans ?_
  rw [← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 r n)
      ((ValueIdx.contrEquiv1 dot_S512x1024_S1024x512_S512x512_1_0_0_1_n_n 1024 rfl rfl).symm k) = ix2 r k :=
    funext fun a => Fin.ext (by
      match a with
      | ⟨0, _⟩ => exact lhs_d2_0 _ _
      | ⟨1, _⟩ => exact (lhs_d2_1 _ _).trans hk)
  have er : dot_S512x1024_S1024x512_S512x512_1_0_0_1_n_n.rhsIdx (ix2 r n)
      ((ValueIdx.contrEquiv1 dot_S512x1024_S1024x512_S512x512_1_0_0_1_n_n 1024 rfl rfl).symm k) = ix2 k n :=
    funext fun a => Fin.ext (by
      match a with
      | ⟨0, _⟩ => exact (rhs_d2_0 _ _).trans hk
      | ⟨1, _⟩ => exact rhs_d2_1 _ _)
  rw [el, er]

/-- The left operand's row coordinate is the result's row. -/
theorem lhs_d3_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

/-- The left operand's column coordinate is the contracted coordinate. -/
theorem lhs_d3_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q

/-- The right operand's row coordinate is the contracted coordinate. -/
theorem rhs_d3_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q

/-- The right operand's column coordinate is the result's column. -/
theorem rhs_d3_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- The third layer's product at row `r`, column `n`: the sum over the 512 contracted entries. -/
theorem matmul_d3_apply {φ₁ φ₂ : FTy} (lhs : FVec Ideal S512x512 φ₁) (rhs : FVec Ideal S512x256 φ₂) (r : Fin 512) (n : Fin 256) :
    matmul dot_S512x512_S512x256_S512x256_1_0_0_1_n_n none lhs rhs (constant S512x256 .f32 0x00000000#32) (ix2 r n)
      = ∑ k : Fin 512, lhs (ix2 r k) * rhs (ix2 k n) := by
  refine (Ideal.matmul_constant_zero_apply dot_S512x512_S512x256_S512x256_1_0_0_1_n_n none lhs rhs (ix2 r n)).trans ?_
  rw [← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 r n)
      ((ValueIdx.contrEquiv1 dot_S512x512_S512x256_S512x256_1_0_0_1_n_n 512 rfl rfl).symm k) = ix2 r k :=
    funext fun a => Fin.ext (by
      match a with
      | ⟨0, _⟩ => exact lhs_d3_0 _ _
      | ⟨1, _⟩ => exact (lhs_d3_1 _ _).trans hk)
  have er : dot_S512x512_S512x256_S512x256_1_0_0_1_n_n.rhsIdx (ix2 r n)
      ((ValueIdx.contrEquiv1 dot_S512x512_S512x256_S512x256_1_0_0_1_n_n 512 rfl rfl).symm k) = ix2 k n :=
    funext fun a => Fin.ext (by
      match a with
      | ⟨0, _⟩ => exact (rhs_d3_0 _ _).trans hk
      | ⟨1, _⟩ => exact rhs_d3_1 _ _)
  rw [el, er]

/-! ## The lane sum and the column it is kept as -/

/-- The sum along the 256 lanes of row `r`. -/
theorem hiddenLaneSum_apply (src : FVec Ideal S512x256 .f32) (hφ : FTy.f32 = FTy.f32 ∨ FTy.f32 = FTy.bf16)
    (hacc : (0x00000000#32 : BitVec 32) = 0x00000000#32) (r : Fin 512) :
    multiReduction (F := Ideal) .add [1] S512 src 0x00000000#32 reduces_S512x256_S512 hφ hacc (ix1 r)
      = ∑ k : Fin 256, src (ix2 r k) := by
  refine (Ideal.multiReduction_add_single src 0x00000000#32 reduces_S512x256_S512 hφ hacc (ix1 r)).trans ?_
  refine Finset.sum_congr rfl fun k _ => congrArg src (funext fun a => Fin.ext ?_)
  match a with
  | ⟨0, _⟩ => rfl
  | ⟨1, _⟩ => rfl

/-! ## Pointwise operations the payloads use, read at an index -/

/-- The reciprocal square root of a vector, read at an index. -/
theorem rsqrt_apply {s : Shape} {φ : FTy} (x : FVec Ideal s φ) (i : s.Idx) : rsqrt x i = Ideal.rsqrt (x i) := rfl

/-- The entry of a `[1, 1]` array taken out at position `(0, 0)`. -/
theorem extractAt_00 {α : Type} (x : S1x1.Idx → α) (h : ∀ a, (![0, 0] : Fin 2 → Nat) a < S1x1.size a) :
    extractAt ![0, 0] x h = x (ix2 (0 : Fin 1) (0 : Fin 1)) := by
  unfold extractAt
  refine congrArg x (funext fun a => ?_)
  match a with
  | ⟨0, _⟩ => rfl
  | ⟨1, _⟩ => rfl

/-! ## The payloads -/

/-- The second layer, then the third layer's dense map, bias and rectifier, at block row `p`, feature `n`. -/
theorem pay6_apply (h1 : FVec Ideal S512x1024 .bf16) (W2 : FVec Ideal S1024x512 .bf16) (b2 g2 m2 v2 be2 : Vec Ideal S1x512 .f32)
    (W3 : Vec Ideal S512x256 .bf16) (b3 : Vec Ideal S1x256 .f32) (p : Fin 512) (n : Fin 256) :
    k0_pay6 (F := Ideal) h1 W2 b2 g2 m2 v2 be2 W3 b3 (ix2 p n)
      = max ((∑ k : Fin 512,
            layerRow (fun k => h1 (ix2 p k)) (fun k n => W2 (ix2 k n)) (fun n => b2 (ix2 (0 : Fin 1) n)) (fun n => g2 (ix2 (0 : Fin 1) n))
              (fun n => be2 (ix2 (0 : Fin 1) n)) (fun n => m2 (ix2 (0 : Fin 1) n)) (fun n => v2 (ix2 (0 : Fin 1) n)) k * W3 (ix2 k n))
          + b3 (ix2 (0 : Fin 1) n)) 0 := by
  unfold k0_pay6
  simp only [maximumf_apply, addf_apply, broadcast_apply, matmul_d3_apply, truncf_apply, mulf_apply, subf_apply, shapeCast_self,
    broadcastTo_1b_ab_apply, matmul_d2_apply, rsqrt_apply, Ideal.ofBits_def, Ideal.ofBits_zero_f32, layerRow]

/-- The last stretch at block row `p`: the third layer's normalisation of `z3`, its dot product with the 256 hidden
    weights, the score's term, the bias, the rectifier. -/
theorem pay1_apply (mf : FVec Ideal S512x1 .f32) (z3 : FVec Ideal S512x256 .f32) (g3 : FVec Ideal S1x256 .f32)
    (m3 v3 be3 wov : Vec Ideal S1x256 .f32) (womf bo : Vec Ideal S1x1 .f32) (p : Fin 512) (u : Fin 1) :
    k0_pay1 (F := Ideal) mf z3 g3 m3 v3 be3 wov womf bo (ix2 p u)
      = max ((mf (ix2 p (0 : Fin 1)) * womf (ix2 (0 : Fin 1) (0 : Fin 1))
            + ∑ k : Fin 256, (g3 (ix2 (0 : Fin 1) k) * (z3 (ix2 p k) - m3 (ix2 (0 : Fin 1) k)) * Ideal.rsqrt (v3 (ix2 (0 : Fin 1) k) + epsBN)
                + be3 (ix2 (0 : Fin 1) k)) * wov (ix2 (0 : Fin 1) k))
          + bo (ix2 (0 : Fin 1) (0 : Fin 1))) 0 := by
  obtain rfl : u = 0 := Subsingleton.elim _ _
  unfold k0_pay1
  simp only [maximumf_apply, addf_apply, broadcast_apply, mulf_apply, subf_apply, shapeCast_self, shapeCast_a_a1_apply,
    broadcastTo_1b_ab_apply, rsqrt_apply, extractAt_00, Ideal.ofBits_def, Ideal.ofBits_zero_f32]
  rw [hiddenLaneSum_apply]
  simp only [addf_apply, broadcast_apply, mulf_apply, subf_apply, broadcastTo_1b_ab_apply, rsqrt_apply]

/-- The whole body at block row `p`: `outRow` of that row of the input block, with the weights read off the blocks. -/
theorem payload_apply (x0 : Vec Ideal S512x512 .f32) (x1 : Vec Ideal S512x1024 .bf16) (x2 x3 x4 x5 x6 : Vec Ideal S1x1024 .f32)
    (x7 : Vec Ideal S1024x512 .bf16) (x8 x9 x10 x11 x12 : Vec Ideal S1x512 .f32)
    (x13 : Vec Ideal S512x256 .bf16) (x14 x15 x16 x17 x18 x19 : Vec Ideal S1x256 .f32)
    (x20 x21 : Vec Ideal S1x1 .f32) (p : Fin 512) (u : Fin 1) :
    k0_pay1 (F := Ideal) (k0_pay3 x0) (k0_pay6 (k0_pay4 x0 x1 x2 x3 x5 x6 x4) (k0_pay5 x7) x8 x9 x11 x12 x10 x13 x14) (k0_pay7 x15)
        x17 x18 x16 x19 x20 x21 (ix2 p u)
      = outRow (blockParams x1 x2 x3 x4 x5 x6 x7 x8 x9 x10 x11 x12 x13 x14 x15 x16 x17 x18 x19 x20 x21) (fun j => x0 (ix2 p j)) := by
  rw [pay1_apply, pay3_apply]
  simp only [pay6_apply, pay4_apply, k0_pay5, k0_pay7, shapeCast_self, outRow, hidden3, hidden2, hidden1, layerRow, blockParams]

end Cert.KernelIdeal.KerVal

end
-- ==== Proof.KerFinal.lean ====
/-
  From blocks to the array: what grid point `t` writes back is block `t` (rows 512·t … 512·t + 511) of `G` of the
  gathered rows and the weights; the 32 blocks cover the `[16384, 1]` result; so after the kernel's run the result
  array is `G`, and the arguments are unchanged.
-/
import proofs.«137861_j89111981457842_1_alg».proof.Proof.Gen.KernelIdeal.Value
import proofs.«137861_j89111981457842_1_alg».proof.Proof.Spec
import proofs.«137861_j89111981457842_1_alg».proof.Proof.KerDefs
import proofs.«137861_j89111981457842_1_alg».proof.Proof.KerPay2
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KerVal

open Cert.KernelIdeal Cert.KernelIdeal.Gen Cert.KernelIdeal.Value Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ) (ρ : Dev nD → PrngReg)

/-- Two reshapes in a row read the operand where the row-major positions agree. -/
theorem shapeCast_shapeCast_apply {s t u : Shape} {α : Type} (x : s.Idx → α) (h : s.ShapeCasts t) (h' : t.ShapeCasts u)
    (j : u.Idx) (k : s.Idx) (hk : (s.rowMajor k).val = (u.rowMajor j).val) :
    shapeCast u (shapeCast t x h) h' j = x k := by
  show x (Shape.reshapeEquiv h (Shape.reshapeEquiv h' j)) = x k
  rw [Shape.reshapeEquiv_reshapeEquiv]
  exact congrArg x (Shape.reshapeEquiv_eq_of_rowMajor _ hk)

/-! ## The arrays the kernel's windows are cut from, as the operations before the launch leave them -/

/-- The first window's array is the gathered rows. -/
theorem arr_rows (c : Dev nD) : (V m c main_v10 : S16384x512.Idx → EReal)
    = rows (F := Ideal) (m ((c : Thread nD τ).loc main_arg0)) (m ((c : Thread nD τ).loc main_arg1)) := by
  dsimp only [Gen.V, Gen.hostOps0]
  after_results_simp
  rfl

/-- The dense map's matrix rounded to the narrower format: over the extended reals the rounding is the identity. -/
theorem arr_W1 (c : Dev nD) : (V m c main_v19 : S512x1024.Idx → EReal) = (m ((c : Thread nD τ).loc main_arg2) : S512x1024.Idx → EReal) := by
  dsimp only [Gen.V, Gen.hostOps0]
  after_results_simp
  rfl

/-- The dense map's matrix rounded to the narrower format: over the extended reals the rounding is the identity. -/
theorem arr_W2 (c : Dev nD) : (V m c main_v20 : S1024x512.Idx → EReal) = (m ((c : Thread nD τ).loc main_arg8) : S1024x512.Idx → EReal) := by
  dsimp only [Gen.V, Gen.hostOps0]
  after_results_simp
  rfl

/-- The dense map's matrix rounded to the narrower format: over the extended reals the rounding is the identity. -/
theorem arr_W3 (c : Dev nD) : (V m c main_v21 : S512x256.Idx → EReal) = (m ((c : Thread nD τ).loc main_arg14) : S512x256.Idx → EReal) := by
  dsimp only [Gen.V, Gen.hostOps0]
  after_results_simp
  rfl

/-- A vector laid out as one row: entry `(u, n)` of the row is entry `n` of the vector. -/
theorem arr_b1 (c : Dev nD) (u : Fin 1) (n : Fin 1024) :
    (V m c main_v22 : S1x1024.Idx → EReal) (ix2 u n) = (m ((c : Thread nD τ).loc main_arg3) : S1024.Idx → EReal) (ix1 n) := by
  have e : (V m c main_v22 : S1x1024.Idx → EReal)
      = shapeCast S1x1024 (m ((c : Thread nD τ).loc main_arg3) : S1024.Idx → EReal) shapeCasts_S1024_S1x1024 := by
    dsimp only [Gen.V, Gen.hostOps0]
    after_results_simp
    rfl
  rw [e]
  exact shapeCast_a_1a_apply _ _ u n

/-- A vector laid out as one row: entry `(u, n)` of the row is entry `n` of the vector. -/
theorem arr_g1 (c : Dev nD) (u : Fin 1) (n : Fin 1024) :
    (V m c main_v23 : S1x1024.Idx → EReal) (ix2 u n) = (m ((c : Thread nD τ).loc main_arg4) : S1024.Idx → EReal) (ix1 n) := by
  have e : (V m c main_v23 : S1x1024.Idx → EReal)
      = shapeCast S1x1024 (m ((c : Thread nD τ).loc main_arg4) : S1024.Idx → EReal) shapeCasts_S1024_S1x1024 := by
    dsimp only [Gen.V, Gen.hostOps0]
    after_results_simp
    rfl
  rw [e]
  exact shapeCast_a_1a_apply _ _ u n

/-- A vector laid out as one row: entry `(u, n)` of the row is entry `n` of the vector. -/
theorem arr_be1 (c : Dev nD) (u : Fin 1) (n : Fin 1024) :
    (V m c main_v24 : S1x1024.Idx → EReal) (ix2 u n) = (m ((c : Thread nD τ).loc main_arg5) : S1024.Idx → EReal) (ix1 n) := by
  have e : (V m c main_v24 : S1x1024.Idx → EReal)
      = shapeCast S1x1024 (m ((c : Thread nD τ).loc main_arg5) : S1024.Idx → EReal) shapeCasts_S1024_S1x1024 := by
    dsimp only [Gen.V, Gen.hostOps0]
    after_results_simp
    rfl
  rw [e]
  exact shapeCast_a_1a_apply _ _ u n

/-- A vector laid out as one row: entry `(u, n)` of the row is entry `n` of the vector. -/
theorem arr_m1 (c : Dev nD) (u : Fin 1) (n : Fin 1024) :
    (V m c main_v25 : S1x1024.Idx → EReal) (ix2 u n) = (m ((c : Thread nD τ).loc main_arg6) : S1024.Idx → EReal) (ix1 n) := by
  have e : (V m c main_v25 : S1x1024.Idx → EReal)
      = shapeCast S1x1024 (m ((c : Thread nD τ).loc main_arg6) : S1024.Idx → EReal) shapeCasts_S1024_S1x1024 := by
    dsimp only [Gen.V, Gen.hostOps0]
    after_results_simp
    rfl
  rw [e]
  exact shapeCast_a_1a_apply _ _ u n

/-- A vector laid out as one row: entry `(u, n)` of the row is entry `n` of the vector. -/
theorem arr_v1 (c : Dev nD) (u : Fin 1) (n : Fin 1024) :
    (V m c main_v26 : S1x1024.Idx → EReal) (ix2 u n) = (m ((c : Thread nD τ).loc main_arg7) : S1024.Idx → EReal) (ix1 n) := by
  have e : (V m c main_v26 : S1x1024.Idx → EReal)
      = shapeCast S1x1024 (m ((c : Thread nD τ).loc main_arg7) : S1024.Idx → EReal) shapeCasts_S1024_S1x1024 := by
    dsimp only [Gen.V, Gen.hostOps0]
    after_results_simp
    rfl
  rw [e]
  exact shapeCast_a_1a_apply _ _ u n

/-- A vector laid out as one row: entry `(u, n)` of the row is entry `n` of the vector. -/
theorem arr_b2 (c : Dev nD) (u : Fin 1) (n : Fin 512) :
    (V m c main_v27 : S1x512.Idx → EReal) (ix2 u n) = (m ((c : Thread nD τ).loc main_arg9) : S512.Idx → EReal) (ix1 n) := by
  have e : (V m c main_v27 : S1x512.Idx → EReal)
      = shapeCast S1x512 (m ((c : Thread nD τ).loc main_arg9) : S512.Idx → EReal) shapeCasts_S512_S1x512 := by
    dsimp only [Gen.V, Gen.hostOps0]
    after_results_simp
    rfl
  rw [e]
  exact shapeCast_a_1a_apply _ _ u n

/-- A vector laid out as one row: entry `(u, n)` of the row is entry `n` of the vector. -/
theorem arr_g2 (c : Dev nD) (u : Fin 1) (n : Fin 512) :
    (V m c main_v28 : S1x512.Idx → EReal) (ix2 u n) = (m ((c : Thread nD τ).loc main_arg10) : S512.Idx → EReal) (ix1 n) := by
  have e : (V m c main_v28 : S1x512.Idx → EReal)
      = shapeCast S1x512 (m ((c : Thread nD τ).loc main_arg10) : S512.Idx → EReal) shapeCasts_S512_S1x512 := by
    dsimp only [Gen.V, Gen.hostOps0]
    after_results_simp
    rfl
  rw [e]
  exact shapeCast_a_1a_apply _ _ u n

/-- A vector laid out as one row: entry `(u, n)` of the row is entry `n` of the vector. -/
theorem arr_be2 (c : Dev nD) (u : Fin 1) (n : Fin 512) :
    (V m c main_v29 : S1x512.Idx → EReal) (ix2 u n) = (m ((c : Thread nD τ).loc main_arg11) : S512.Idx → EReal) (ix1 n) := by
  have e : (V m c main_v29 : S1x512.Idx → EReal)
      = shapeCast S1x512 (m ((c : Thread nD τ).loc main_arg11) : S512.Idx → EReal) shapeCasts_S512_S1x512 := by
    dsimp only [Gen.V, Gen.hostOps0]
    after_results_simp
    rfl
  rw [e]
  exact shapeCast_a_1a_apply _ _ u n

/-- A vector laid out as one row: entry `(u, n)` of the row is entry `n` of the vector. -/
theorem arr_m2 (c : Dev nD) (u : Fin 1) (n : Fin 512) :
    (V m c main_v30 : S1x512.Idx → EReal) (ix2 u n) = (m ((c : Thread nD τ).loc main_arg12) : S512.Idx → EReal) (ix1 n) := by
  have e : (V m c main_v30 : S1x512.Idx → EReal)
      = shapeCast S1x512 (m ((c : Thread nD τ).loc main_arg12) : S512.Idx → EReal) shapeCasts_S512_S1x512 := by
    dsimp only [Gen.V, Gen.hostOps0]
    after_results_simp
    rfl
  rw [e]
  exact shapeCast_a_1a_apply _ _ u n

/-- A vector laid out as one row: entry `(u, n)` of the row is entry `n` of the vector. -/
theorem arr_v2 (c : Dev nD) (u : Fin 1) (n : Fin 512) :
    (V m c main_v31 : S1x512.Idx → EReal) (ix2 u n) = (m ((c : Thread nD τ).loc main_arg13) : S512.Idx → EReal) (ix1 n) := by
  have e : (V m c main_v31 : S1x512.Idx → EReal)
      = shapeCast S1x512 (m ((c : Thread nD τ).loc main_arg13) : S512.Idx → EReal) shapeCasts_S512_S1x512 := by
    dsimp only [Gen.V, Gen.hostOps0]
    after_results_simp
    rfl
  rw [e]
  exact shapeCast_a_1a_apply _ _ u n

/-- A vector laid out as one row: entry `(u, n)` of the row is entry `n` of the vector. -/
theorem arr_b3 (c : Dev nD) (u : Fin 1) (n : Fin 256) :
    (V m c main_v32 : S1x256.Idx → EReal) (ix2 u n) = (m ((c : Thread nD τ).loc main_arg15) : S256.Idx → EReal) (ix1 n) := by
  have e : (V m c main_v32 : S1x256.Idx → EReal)
      = shapeCast S1x256 (m ((c : Thread nD τ).loc main_arg15) : S256.Idx → EReal) shapeCasts_S256_S1x256 := by
    dsimp only [Gen.V, Gen.hostOps0]
    after_results_simp
    rfl
  rw [e]
  exact shapeCast_a_1a_apply _ _ u n

/-- A vector laid out as one row: entry `(u, n)` of the row is entry `n` of the vector. -/
theorem arr_g3 (c : Dev nD) (u : Fin 1) (n : Fin 256) :
    (V m c main_v33 : S1x256.Idx → EReal) (ix2 u n) = (m ((c : Thread nD τ).loc main_arg16) : S256.Idx → EReal) (ix1 n) := by
  have e : (V m c main_v33 : S1x256.Idx → EReal)
      = shapeCast S1x256 (m ((c : Thread nD τ).loc main_arg16) : S256.Idx → EReal) shapeCasts_S256_S1x256 := by
    dsimp only [Gen.V, Gen.hostOps0]
    after_results_simp
    rfl
  rw [e]
  exact shapeCast_a_1a_apply _ _ u n

/-- A vector laid out as one row: entry `(u, n)` of the row is entry `n` of the vector. -/
theorem arr_be3 (c : Dev nD) (u : Fin 1) (n : Fin 256) :
    (V m c main_v34 : S1x256.Idx → EReal) (ix2 u n) = (m ((c : Thread nD τ).loc main_arg17) : S256.Idx → EReal) (ix1 n) := by
  have e : (V m c main_v34 : S1x256.Idx → EReal)
      = shapeCast S1x256 (m ((c : Thread nD τ).loc main_arg17) : S256.Idx → EReal) shapeCasts_S256_S1x256 := by
    dsimp only [Gen.V, Gen.hostOps0]
    after_results_simp
    rfl
  rw [e]
  exact shapeCast_a_1a_apply _ _ u n

/-- A vector laid out as one row: entry `(u, n)` of the row is entry `n` of the vector. -/
theorem arr_m3 (c : Dev nD) (u : Fin 1) (n : Fin 256) :
    (V m c main_v35 : S1x256.Idx → EReal) (ix2 u n) = (m ((c : Thread nD τ).loc main_arg18) : S256.Idx → EReal) (ix1 n) := by
  have e : (V m c main_v35 : S1x256.Idx → EReal)
      = shapeCast S1x256 (m ((c : Thread nD τ).loc main_arg18) : S256.Idx → EReal) shapeCasts_S256_S1x256 := by
    dsimp only [Gen.V, Gen.hostOps0]
    after_results_simp
    rfl
  rw [e]
  exact shapeCast_a_1a_apply _ _ u n

/-- A vector laid out as one row: entry `(u, n)` of the row is entry `n` of the vector. -/
theorem arr_v3 (c : Dev nD) (u : Fin 1) (n : Fin 256) :
    (V m c main_v36 : S1x256.Idx → EReal) (ix2 u n) = (m ((c : Thread nD τ).loc main_arg19) : S256.Idx → EReal) (ix1 n) := by
  have e : (V m c main_v36 : S1x256.Idx → EReal)
      = shapeCast S1x256 (m ((c : Thread nD τ).loc main_arg19) : S256.Idx → EReal) shapeCasts_S256_S1x256 := by
    dsimp only [Gen.V, Gen.hostOps0]
    after_results_simp
    rfl
  rw [e]
  exact shapeCast_a_1a_apply _ _ u n

/-- Entries 1 … 256 of the last layer's vector, cut out, flattened and laid out as one row. -/
theorem arr_wov (c : Dev nD) (u : Fin 1) (k : Fin 256) :
    (V m c main_v16 : S1x256.Idx → EReal) (ix2 u k) = (m ((c : Thread nD τ).loc main_arg20) : S257x1.Idx → EReal) (ix2 (k.succ : Fin 257) (0 : Fin 1)) := by
  have e : (V m c main_v16 : S1x256.Idx → EReal)
      = shapeCast S1x256 (shapeCast S256 (extractStridedSlice S256x1 ![1, 0] (m ((c : Thread nD τ).loc main_arg20) : S257x1.Idx → EReal) slices_S257x1_S256x1_1_0) shapeCasts_S256x1_S256) shapeCasts_S256_S1x256 := by
    dsimp only [Gen.V, Gen.hostOps0]
    after_results_simp
    rfl
  rw [e]
  refine (shapeCast_shapeCast_apply _ _ _ (ix2 u k) (ix2 k (0 : Fin 1)) ?_).trans ?_
  · rw [Shape.rowMajor_val_two, Shape.rowMajor_val_two]
    show k.val * 1 + 0 = u.val * 256 + k.val
    have hu : u.val = 0 := by omega
    omega
  · exact slice2_axis0_apply 1 _ _ k (0 : Fin 1) k.succ (by rw [Fin.val_succ]; omega)

/-- Entry 0 of the last layer's vector, cut out as a `[1, 1]` array. -/
theorem arr_wo0 (c : Dev nD) (u v : Fin 1) :
    (V m c main_v13 : S1x1.Idx → EReal) (ix2 u v) = (m ((c : Thread nD τ).loc main_arg20) : S257x1.Idx → EReal) (ix2 (0 : Fin 257) (0 : Fin 1)) := by
  have e : (V m c main_v13 : S1x1.Idx → EReal)
      = shapeCast S1x1 (shapeCast S_ (extractStridedSlice S1x1 ![0, 0] (m ((c : Thread nD τ).loc main_arg20) : S257x1.Idx → EReal) slices_S257x1_S1x1_0_0) shapeCasts_S1x1_S_) shapeCasts_S_S1x1 := by
    dsimp only [Gen.V, Gen.hostOps0]
    after_results_simp
    rfl
  rw [e]
  refine (shapeCast_shapeCast_apply _ _ _ (ix2 u v) (ix2 u v) rfl).trans ?_
  obtain rfl : v = 0 := Subsingleton.elim _ _
  exact slice2_axis0_apply 0 _ _ u (0 : Fin 1) (0 : Fin 257) (by show 0 = 0 + u.val; omega)

/-- The output bias as a `[1, 1]` array. -/
theorem arr_bo (c : Dev nD) (u v : Fin 1) :
    (V m c main_v18 : S1x1.Idx → EReal) (ix2 u v) = (m ((c : Thread nD τ).loc main_arg21) : S1.Idx → EReal) (ix1 (0 : Fin 1)) := by
  have e : (V m c main_v18 : S1x1.Idx → EReal)
      = shapeCast S1x1 (shapeCast S_ (m ((c : Thread nD τ).loc main_arg21) : S1.Idx → EReal) shapeCasts_S1_S_) shapeCasts_S_S1x1 := by
    dsimp only [Gen.V, Gen.hostOps0]
    after_results_simp
    rfl
  rw [e]
  refine shapeCast_shapeCast_apply _ _ _ (ix2 u v) (ix1 (0 : Fin 1)) ?_
  rw [Shape.rowMajor_val_two, Shape.rowMajor_val_one]
  show 0 = u.val * 1 + v.val
  omega

/-! ## The windows' index maps over the grid -/

/-- The zero offset of a whole block. -/
theorem hz : (![0, 0] : Fin 2 → Nat) = fun _ => 0 := funext fun a => by fin_cases a <;> rfl

/-- Grid point `t` takes block `(t, 0)` of the gathered rows and writes block `(t, 0)` of the result. -/
theorem idx_rows : ∀ t : Fin cfg0.N, win0_0.index t (0 : Fin 2) = t.val ∧ win0_0.index t (1 : Fin 2) = 0
    ∧ win0_22.index t (0 : Fin 2) = t.val ∧ win0_22.index t (1 : Fin 2) = 0 :=
  (by decide +kernel : ∀ t : Fin grid0.N, _)

/-- Every weight window's block index is `(0, 0)` at every grid point: its one block is the whole array. -/
theorem idx_weights : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = 0 ∧ win0_19.index t (1 : Fin 2) = 0
    ∧ win0_20.index t (0 : Fin 2) = 0 ∧ win0_20.index t (1 : Fin 2) = 0
    ∧ win0_21.index t (0 : Fin 2) = 0 ∧ win0_21.index t (1 : Fin 2) = 0 :=
  (by decide +kernel : ∀ t : Fin grid0.N, _)

/-! ## The blocks at a grid point -/

/-- The block of the gathered rows at grid point `t` is rows `512·t … 512·t + 511`. -/
theorem blk_rows (c : Dev nD) (t : Fin cfg0.N) (p j : Fin 512) (r : Fin 16384) (hr : r.val = 512 * t.val + p.val) :
    (iblk m c 0 t : Vec Ideal S512x512 .f32) (ix2 p j)
      = rows (F := Ideal) (m ((c : Thread nD τ).loc main_arg0)) (m ((c : Thread nD τ).loc main_arg1)) (ix2 r j) := by
  obtain ⟨e0, e1, -, -⟩ := idx_rows t
  rw [← arr_rows m c]
  show V m c main_v10 (((cfg0.win 0).blk t).view.emb (ix2 p j)) = V m c main_v10 (ix2 r j)
  refine congrArg (V m c main_v10) (funext fun a => Fin.ext ?_)
  match a with
  | ⟨0, _⟩ => show win0_0.index t (0 : Fin 2) * 512 + 1 * p.val = r.val; omega
  | ⟨1, _⟩ => show win0_0.index t (1 : Fin 2) * 512 + 1 * j.val = j.val; omega

/-- The one block of a dense map's matrix is the whole matrix. -/
theorem blk_W1 (c : Dev nD) (t : Fin cfg0.N) (k : Fin 512) (n : Fin 1024) :
    (iblk m c 1 t : Vec Ideal S512x1024 .bf16) (ix2 k n) = (m ((c : Thread nD τ).loc main_arg2) : S512x1024.Idx → EReal) (ix2 k n) := by
  rw [← arr_W1 m c]
  show V m c main_v19 (((cfg0.win 1).blk t).view.emb (ix2 k n)) = V m c main_v19 (ix2 k n)
  have h := idx_weights t
  refine congrArg (V m c main_v19) (funext fun a => Fin.ext ?_)
  match a with
  | ⟨0, _⟩ => show win0_1.index t (0 : Fin 2) * 512 + 1 * k.val = k.val; omega
  | ⟨1, _⟩ => show win0_1.index t (1 : Fin 2) * 1024 + 1 * n.val = n.val; omega

/-- The one block of a row-shaped vector is the whole row. -/
theorem blk_b1 (c : Dev nD) (t : Fin cfg0.N) (n : Fin 1024) :
    (iblk m c 2 t : Vec Ideal S1x1024 .f32) (ix2 (0 : Fin 1) n) = (m ((c : Thread nD τ).loc main_arg3) : S1024.Idx → EReal) (ix1 n) := by
  rw [← arr_b1 m c (0 : Fin 1) n]
  show V m c main_v22 (((cfg0.win 2).blk t).view.emb (ix2 (0 : Fin 1) n)) = V m c main_v22 (ix2 (0 : Fin 1) n)
  have h := idx_weights t
  refine congrArg (V m c main_v22) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * n.val = n.val; omega

/-- The one block of a row-shaped vector is the whole row. -/
theorem blk_g1 (c : Dev nD) (t : Fin cfg0.N) (n : Fin 1024) :
    (iblk m c 3 t : Vec Ideal S1x1024 .f32) (ix2 (0 : Fin 1) n) = (m ((c : Thread nD τ).loc main_arg4) : S1024.Idx → EReal) (ix1 n) := by
  rw [← arr_g1 m c (0 : Fin 1) n]
  show V m c main_v23 (((cfg0.win 3).blk t).view.emb (ix2 (0 : Fin 1) n)) = V m c main_v23 (ix2 (0 : Fin 1) n)
  have h := idx_weights t
  refine congrArg (V m c main_v23) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 1024 + 1 * n.val = n.val; omega

/-- The one block of a row-shaped vector is the whole row. -/
theorem blk_be1 (c : Dev nD) (t : Fin cfg0.N) (n : Fin 1024) :
    (iblk m c 4 t : Vec Ideal S1x1024 .f32) (ix2 (0 : Fin 1) n) = (m ((c : Thread nD τ).loc main_arg5) : S1024.Idx → EReal) (ix1 n) := by
  rw [← arr_be1 m c (0 : Fin 1) n]
  show V m c main_v24 (((cfg0.win 4).blk t).view.emb (ix2 (0 : Fin 1) n)) = V m c main_v24 (ix2 (0 : Fin 1) n)
  have h := idx_weights t
  refine congrArg (V m c main_v24) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 1024 + 1 * n.val = n.val; omega

/-- The one block of a row-shaped vector is the whole row. -/
theorem blk_m1 (c : Dev nD) (t : Fin cfg0.N) (n : Fin 1024) :
    (iblk m c 5 t : Vec Ideal S1x1024 .f32) (ix2 (0 : Fin 1) n) = (m ((c : Thread nD τ).loc main_arg6) : S1024.Idx → EReal) (ix1 n) := by
  rw [← arr_m1 m c (0 : Fin 1) n]
  show V m c main_v25 (((cfg0.win 5).blk t).view.emb (ix2 (0 : Fin 1) n)) = V m c main_v25 (ix2 (0 : Fin 1) n)
  have h := idx_weights t
  refine congrArg (V m c main_v25) (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 1024 + 1 * n.val = n.val; omega

/-- The one block of a row-shaped vector is the whole row. -/
theorem blk_v1 (c : Dev nD) (t : Fin cfg0.N) (n : Fin 1024) :
    (iblk m c 6 t : Vec Ideal S1x1024 .f32) (ix2 (0 : Fin 1) n) = (m ((c : Thread nD τ).loc main_arg7) : S1024.Idx → EReal) (ix1 n) := by
  rw [← arr_v1 m c (0 : Fin 1) n]
  show V m c main_v26 (((cfg0.win 6).blk t).view.emb (ix2 (0 : Fin 1) n)) = V m c main_v26 (ix2 (0 : Fin 1) n)
  have h := idx_weights t
  refine congrArg (V m c main_v26) (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 1024 + 1 * n.val = n.val; omega

/-- The one block of a dense map's matrix is the whole matrix. -/
theorem blk_W2 (c : Dev nD) (t : Fin cfg0.N) (k : Fin 1024) (n : Fin 512) :
    (iblk m c 7 t : Vec Ideal S1024x512 .bf16) (ix2 k n) = (m ((c : Thread nD τ).loc main_arg8) : S1024x512.Idx → EReal) (ix2 k n) := by
  rw [← arr_W2 m c]
  show V m c main_v20 (((cfg0.win 7).blk t).view.emb (ix2 k n)) = V m c main_v20 (ix2 k n)
  have h := idx_weights t
  refine congrArg (V m c main_v20) (funext fun a => Fin.ext ?_)
  match a with
  | ⟨0, _⟩ => show win0_7.index t (0 : Fin 2) * 1024 + 1 * k.val = k.val; omega
  | ⟨1, _⟩ => show win0_7.index t (1 : Fin 2) * 512 + 1 * n.val = n.val; omega

/-- The one block of a row-shaped vector is the whole row. -/
theorem blk_b2 (c : Dev nD) (t : Fin cfg0.N) (n : Fin 512) :
    (iblk m c 8 t : Vec Ideal S1x512 .f32) (ix2 (0 : Fin 1) n) = (m ((c : Thread nD τ).loc main_arg9) : S512.Idx → EReal) (ix1 n) := by
  rw [← arr_b2 m c (0 : Fin 1) n]
  show V m c main_v27 (((cfg0.win 8).blk t).view.emb (ix2 (0 : Fin 1) n)) = V m c main_v27 (ix2 (0 : Fin 1) n)
  have h := idx_weights t
  refine congrArg (V m c main_v27) (funext fun a => Fin.ext ?_)
  match a with
  | ⟨0, _⟩ => show win0_8.index t (0 : Fin 2) * 1 + 1 * (0 : Fin 1).val = (0 : Fin 1).val; omega
  | ⟨1, _⟩ => show win0_8.index t (1 : Fin 2) * 512 + 1 * n.val = n.val; omega

/-- The one block of a row-shaped vector is the whole row. -/
theorem blk_g2 (c : Dev nD) (t : Fin cfg0.N) (n : Fin 512) :
    (iblk m c 9 t : Vec Ideal S1x512 .f32) (ix2 (0 : Fin 1) n) = (m ((c : Thread nD τ).loc main_arg10) : S512.Idx → EReal) (ix1 n) := by
  rw [← arr_g2 m c (0 : Fin 1) n]
  show V m c main_v28 (((cfg0.win 9).blk t).view.emb (ix2 (0 : Fin 1) n)) = V m c main_v28 (ix2 (0 : Fin 1) n)
  have h := idx_weights t
  refine congrArg (V m c main_v28) (funext fun a => Fin.ext ?_)
  match a with
  | ⟨0, _⟩ => show win0_9.index t (0 : Fin 2) * 1 + 1 * (0 : Fin 1).val = (0 : Fin 1).val; omega
  | ⟨1, _⟩ => show win0_9.index t (1 : Fin 2) * 512 + 1 * n.val = n.val; omega

/-- The one block of a row-shaped vector is the whole row. -/
theorem blk_be2 (c : Dev nD) (t : Fin cfg0.N) (n : Fin 512) :
    (iblk m c 10 t : Vec Ideal S1x512 .f32) (ix2 (0 : Fin 1) n) = (m ((c : Thread nD τ).loc main_arg11) : S512.Idx → EReal) (ix1 n) := by
  rw [← arr_be2 m c (0 : Fin 1) n]
  show V m c main_v29 (((cfg0.win 10).blk t).view.emb (ix2 (0 : Fin 1) n)) = V m c main_v29 (ix2 (0 : Fin 1) n)
  have h := idx_weights t
  refine congrArg (V m c main_v29) (funext fun a => Fin.ext ?_)
  match a with
  | ⟨0, _⟩ => show win0_10.index t (0 : Fin 2) * 1 + 1 * (0 : Fin 1).val = (0 : Fin 1).val; omega
  | ⟨1, _⟩ => show win0_10.index t (1 : Fin 2) * 512 + 1 * n.val = n.val; omega

/-- The one block of a row-shaped vector is the whole row. -/
theorem blk_m2 (c : Dev nD) (t : Fin cfg0.N) (n : Fin 512) :
    (iblk m c 11 t : Vec Ideal S1x512 .f32) (ix2 (0 : Fin 1) n) = (m ((c : Thread nD τ).loc main_arg12) : S512.Idx → EReal) (ix1 n) := by
  rw [← arr_m2 m c (0 : Fin 1) n]
  show V m c main_v30 (((cfg0.win 11).blk t).view.emb (ix2 (0 : Fin 1) n)) = V m c main_v30 (ix2 (0 : Fin 1) n)
  have h := idx_weights t
  refine congrArg (V m c main_v30) (funext fun a => Fin.ext ?_)
  match a with
  | ⟨0, _⟩ => show win0_11.index t (0 : Fin 2) * 1 + 1 * (0 : Fin 1).val = (0 : Fin 1).val; omega
  | ⟨1, _⟩ => show win0_11.index t (1 : Fin 2) * 512 + 1 * n.val = n.val; omega

/-- The one block of a row-shaped vector is the whole row. -/
theorem blk_v2 (c : Dev nD) (t : Fin cfg0.N) (n : Fin 512) :
    (iblk m c 12 t : Vec Ideal S1x512 .f32) (ix2 (0 : Fin 1) n) = (m ((c : Thread nD τ).loc main_arg13) : S512.Idx → EReal) (ix1 n) := by
  rw [← arr_v2 m c (0 : Fin 1) n]
  show V m c main_v31 (((cfg0.win 12).blk t).view.emb (ix2 (0 : Fin 1) n)) = V m c main_v31 (ix2 (0 : Fin 1) n)
  have h := idx_weights t
  refine congrArg (V m c main_v31) (funext fun a => Fin.ext ?_)
  match a with
  | ⟨0, _⟩ => show win0_12.index t (0 : Fin 2) * 1 + 1 * (0 : Fin 1).val = (0 : Fin 1).val; omega
  | ⟨1, _⟩ => show win0_12.index t (1 : Fin 2) * 512 + 1 * n.val = n.val; omega

/-- The one block of a dense map's matrix is the whole matrix. -/
theorem blk_W3 (c : Dev nD) (t : Fin cfg0.N) (k : Fin 512) (n : Fin 256) :
    (iblk m c 13 t : Vec Ideal S512x256 .bf16) (ix2 k n) = (m ((c : Thread nD τ).loc main_arg14) : S512x256.Idx → EReal) (ix2 k n) := by
  rw [← arr_W3 m c]
  show V m c main_v21 (((cfg0.win 13).blk t).view.emb (ix2 k n)) = V m c main_v21 (ix2 k n)
  have h := idx_weights t
  refine congrArg (V m c main_v21) (funext fun a => Fin.ext ?_)
  match a with
  | ⟨0, _⟩ => show win0_13.index t (0 : Fin 2) * 512 + 1 * k.val = k.val; omega
  | ⟨1, _⟩ => show win0_13.index t (1 : Fin 2) * 256 + 1 * n.val = n.val; omega

/-- The one block of a row-shaped vector is the whole row. -/
theorem blk_b3 (c : Dev nD) (t : Fin cfg0.N) (n : Fin 256) :
    (iblk m c 14 t : Vec Ideal S1x256 .f32) (ix2 (0 : Fin 1) n) = (m ((c : Thread nD τ).loc main_arg15) : S256.Idx → EReal) (ix1 n) := by
  rw [← arr_b3 m c (0 : Fin 1) n]
  show V m c main_v32 (((cfg0.win 14).blk t).view.emb (ix2 (0 : Fin 1) n)) = V m c main_v32 (ix2 (0 : Fin 1) n)
  have h := idx_weights t
  refine congrArg (V m c main_v32) (funext fun a => Fin.ext ?_)
  match a with
  | ⟨0, _⟩ => show win0_14.index t (0 : Fin 2) * 1 + 1 * (0 : Fin 1).val = (0 : Fin 1).val; omega
  | ⟨1, _⟩ => show win0_14.index t (1 : Fin 2) * 256 + 1 * n.val = n.val; omega

/-- The one block of a row-shaped vector is the whole row. -/
theorem blk_g3 (c : Dev nD) (t : Fin cfg0.N) (n : Fin 256) :
    (iblk m c 15 t : Vec Ideal S1x256 .f32) (ix2 (0 : Fin 1) n) = (m ((c : Thread nD τ).loc main_arg16) : S256.Idx → EReal) (ix1 n) := by
  rw [← arr_g3 m c (0 : Fin 1) n]
  show V m c main_v33 (((cfg0.win 15).blk t).view.emb (ix2 (0 : Fin 1) n)) = V m c main_v33 (ix2 (0 : Fin 1) n)
  have h := idx_weights t
  refine congrArg (V m c main_v33) (funext fun a => Fin.ext ?_)
  match a with
  | ⟨0, _⟩ => show win0_15.index t (0 : Fin 2) * 1 + 1 * (0 : Fin 1).val = (0 : Fin 1).val; omega
  | ⟨1, _⟩ => show win0_15.index t (1 : Fin 2) * 256 + 1 * n.val = n.val; omega

/-- The one block of a row-shaped vector is the whole row. -/
theorem blk_be3 (c : Dev nD) (t : Fin cfg0.N) (n : Fin 256) :
    (iblk m c 16 t : Vec Ideal S1x256 .f32) (ix2 (0 : Fin 1) n) = (m ((c : Thread nD τ).loc main_arg17) : S256.Idx → EReal) (ix1 n) := by
  rw [← arr_be3 m c (0 : Fin 1) n]
  show V m c main_v34 (((cfg0.win 16).blk t).view.emb (ix2 (0 : Fin 1) n)) = V m c main_v34 (ix2 (0 : Fin 1) n)
  have h := idx_weights t
  refine congrArg (V m c main_v34) (funext fun a => Fin.ext ?_)
  match a with
  | ⟨0, _⟩ => show win0_16.index t (0 : Fin 2) * 1 + 1 * (0 : Fin 1).val = (0 : Fin 1).val; omega
  | ⟨1, _⟩ => show win0_16.index t (1 : Fin 2) * 256 + 1 * n.val = n.val; omega

/-- The one block of a row-shaped vector is the whole row. -/
theorem blk_m3 (c : Dev nD) (t : Fin cfg0.N) (n : Fin 256) :
    (iblk m c 17 t : Vec Ideal S1x256 .f32) (ix2 (0 : Fin 1) n) = (m ((c : Thread nD τ).loc main_arg18) : S256.Idx → EReal) (ix1 n) := by
  rw [← arr_m3 m c (0 : Fin 1) n]
  show V m c main_v35 (((cfg0.win 17).blk t).view.emb (ix2 (0 : Fin 1) n)) = V m c main_v35 (ix2 (0 : Fin 1) n)
  have h := idx_weights t
  refine congrArg (V m c main_v35) (funext fun a => Fin.ext ?_)
  match a with
  | ⟨0, _⟩ => show win0_17.index t (0 : Fin 2) * 1 + 1 * (0 : Fin 1).val = (0 : Fin 1).val; omega
  | ⟨1, _⟩ => show win0_17.index t (1 : Fin 2) * 256 + 1 * n.val = n.val; omega

/-- The one block of a row-shaped vector is the whole row. -/
theorem blk_v3 (c : Dev nD) (t : Fin cfg0.N) (n : Fin 256) :
    (iblk m c 18 t : Vec Ideal S1x256 .f32) (ix2 (0 : Fin 1) n) = (m ((c : Thread nD τ).loc main_arg19) : S256.Idx → EReal) (ix1 n) := by
  rw [← arr_v3 m c (0 : Fin 1) n]
  show V m c main_v36 (((cfg0.win 18).blk t).view.emb (ix2 (0 : Fin 1) n)) = V m c main_v36 (ix2 (0 : Fin 1) n)
  have h := idx_weights t
  refine congrArg (V m c main_v36) (funext fun a => Fin.ext ?_)
  match a with
  | ⟨0, _⟩ => show win0_18.index t (0 : Fin 2) * 1 + 1 * (0 : Fin 1).val = (0 : Fin 1).val; omega
  | ⟨1, _⟩ => show win0_18.index t (1 : Fin 2) * 256 + 1 * n.val = n.val; omega

/-- The one block of the hidden features' weights is the whole row: entries 1 … 256 of the last layer's vector. -/
theorem blk_wov (c : Dev nD) (t : Fin cfg0.N) (k : Fin 256) :
    (iblk m c 19 t : Vec Ideal S1x256 .f32) (ix2 (0 : Fin 1) k) = (m ((c : Thread nD τ).loc main_arg20) : S257x1.Idx → EReal) (ix2 (k.succ : Fin 257) (0 : Fin 1)) := by
  rw [← arr_wov m c (0 : Fin 1) k]
  show V m c main_v16 (((cfg0.win 19).blk t).view.emb (ix2 (0 : Fin 1) k)) = V m c main_v16 (ix2 (0 : Fin 1) k)
  have h := idx_weights t
  refine congrArg (V m c main_v16) (funext fun a => Fin.ext ?_)
  match a with
  | ⟨0, _⟩ => show win0_19.index t (0 : Fin 2) * 1 + 1 * (0 : Fin 1).val = (0 : Fin 1).val; omega
  | ⟨1, _⟩ => show win0_19.index t (1 : Fin 2) * 256 + 1 * k.val = k.val; omega

/-- The block of the score's weight: entry 0 of the last layer's vector. -/
theorem blk_wo0 (c : Dev nD) (t : Fin cfg0.N) :
    (iblk m c 20 t : Vec Ideal S1x1 .f32) (ix2 (0 : Fin 1) (0 : Fin 1)) = (m ((c : Thread nD τ).loc main_arg20) : S257x1.Idx → EReal) (ix2 (0 : Fin 257) (0 : Fin 1)) := by
  rw [← arr_wo0 m c (0 : Fin 1) (0 : Fin 1)]
  show V m c main_v13 (((cfg0.win 20).blk t).view.emb (ix2 (0 : Fin 1) (0 : Fin 1))) = V m c main_v13 (ix2 (0 : Fin 1) (0 : Fin 1))
  have h := idx_weights t
  refine congrArg (V m c main_v13) (funext fun a => Fin.ext ?_)
  match a with
  | ⟨0, _⟩ => show win0_20.index t (0 : Fin 2) * 1 + 1 * (0 : Fin 1).val = (0 : Fin 1).val; omega
  | ⟨1, _⟩ => show win0_20.index t (1 : Fin 2) * 1 + 1 * (0 : Fin 1).val = (0 : Fin 1).val; omega

/-- The block of the output bias. -/
theorem blk_bo (c : Dev nD) (t : Fin cfg0.N) :
    (iblk m c 21 t : Vec Ideal S1x1 .f32) (ix2 (0 : Fin 1) (0 : Fin 1)) = (m ((c : Thread nD τ).loc main_arg21) : S1.Idx → EReal) (ix1 (0 : Fin 1)) := by
  rw [← arr_bo m c (0 : Fin 1) (0 : Fin 1)]
  show V m c main_v18 (((cfg0.win 21).blk t).view.emb (ix2 (0 : Fin 1) (0 : Fin 1))) = V m c main_v18 (ix2 (0 : Fin 1) (0 : Fin 1))
  have h := idx_weights t
  refine congrArg (V m c main_v18) (funext fun a => Fin.ext ?_)
  match a with
  | ⟨0, _⟩ => show win0_21.index t (0 : Fin 2) * 1 + 1 * (0 : Fin 1).val = (0 : Fin 1).val; omega
  | ⟨1, _⟩ => show win0_21.index t (1 : Fin 2) * 1 + 1 * (0 : Fin 1).val = (0 : Fin 1).val; omega

/-- The weights one grid point finds in its blocks are the weights read off the argument arrays. -/
theorem weights_eq (c : Dev nD) (t : Fin cfg0.N) :
    blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
      = paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  unfold blockParams paramsOf
  simp only [Params.mk.injEq]
  exact ⟨funext fun k => funext fun n => blk_W1 m c t k n,
    funext fun n => blk_b1 m c t n,
    funext fun n => blk_g1 m c t n,
    funext fun n => blk_be1 m c t n,
    funext fun n => blk_m1 m c t n,
    funext fun n => blk_v1 m c t n,
    funext fun k => funext fun n => blk_W2 m c t k n,
    funext fun n => blk_b2 m c t n,
    funext fun n => blk_g2 m c t n,
    funext fun n => blk_be2 m c t n,
    funext fun n => blk_m2 m c t n,
    funext fun n => blk_v2 m c t n,
    funext fun k => funext fun n => blk_W3 m c t k n,
    funext fun n => blk_b3 m c t n,
    funext fun n => blk_g3 m c t n,
    funext fun n => blk_be3 m c t n,
    funext fun n => blk_m3 m c t n,
    funext fun n => blk_v3 m c t n,
    blk_wo0 m c t, funext fun k => blk_wov m c t k, blk_bo m c t⟩

/-! ## From the blocks to the array -/

/-- What grid point `t` writes back is block `t` of `G`: row `p` of the block is row `512·t + p` of the gathered
    rows through the network. -/
theorem flushed_eq (c : Dev nD) (t : Fin cfg0.N) :
    (dats m 0 c).flushed 22 t = ((cfg0.win 22).blk t).view.read (Elt Ideal)
      (G (rows (F := Ideal) (m ((c : Thread nD τ).loc main_arg0)) (m ((c : Thread nD τ).loc main_arg1)))
        (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) := by
  rw [flushed22]
  unfold out0_22
  rw [View.canon_unit_zero hz]
  simp only [View.ld_unit_zero (S := S512x512) hz, View.ld_unit_zero (S := S512x1024) hz, View.ld_unit_zero (S := S1x1024) hz,
    View.ld_unit_zero (S := S1024x512) hz, View.ld_unit_zero (S := S1x512) hz, View.ld_unit_zero (S := S512x256) hz,
    View.ld_unit_zero (S := S1x256) hz, View.ld_unit_zero (S := S1x1) hz]
  funext j
  obtain ⟨p, u, rfl⟩ : ∃ (p : Fin 512) (u : Fin 1), j = ix2 p u := ⟨j 0, j 1, eq_ix2 j⟩
  refine (payload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) p u).trans ?_
  rw [weights_eq m c t]
  refine congrArg (outRow _) (funext fun j => ?_)
  refine blk_rows m c t p j _ ?_
  obtain ⟨-, -, e2, -⟩ := idx_rows t
  show win0_22.index t (0 : Fin 2) * 512 + 1 * p.val = 512 * t.val + p.val
  omega

/-- An index of the result is in grid point `t`'s block iff each coordinate is in the block's range on its axis. -/
theorem mem_blk (t : Fin cfg0.N) (i : S16384x1.Idx) :
    i ∈ ((cfg0.win 22).blk t).view.set ↔ ∀ a : Fin 2, win0_22.index t a * S512x1.size a ≤ (i a).val ∧ (i a).val < win0_22.index t a * S512x1.size a + S512x1.size a := by
  show i ∈ ((View.whole main_v37).slice (win0_22.rect t)).set ↔ _
  rw [View.set_slice_whole, Rect.mem_set_unit]
  exact Iff.rfl

/-- Every row of the result is in some grid point's block: row `r` in that of point `r / 512`. -/
theorem cover (i : S16384x1.Idx) : ∃ t : Fin cfg0.N, (cfg0.win 22).flush t = true ∧ i ∈ ((cfg0.win 22).blk t).view.set := by
  have hi0 : (i 0).val < 16384 := (i 0).isLt
  have hi1 : (i 1).val < 1 := (i 1).isLt
  obtain ⟨t, ht⟩ : ∃ t : Fin cfg0.N, t.val = (i 0).val / 512 :=
    ⟨⟨(i 0).val / 512, by rw [show cfg0.N = 32 from N_0]; omega⟩, rfl⟩
  obtain ⟨-, -, e2, e3⟩ := idx_rows t
  refine ⟨t, flush0_22 t, ?_⟩
  rw [mem_blk]
  intro a
  match a with
  | ⟨0, _⟩ => show win0_22.index t (0 : Fin 2) * 512 ≤ (i 0).val ∧ (i 0).val < win0_22.index t (0 : Fin 2) * 512 + 512; omega
  | ⟨1, _⟩ => show win0_22.index t (1 : Fin 2) * 1 ≤ (i 1).val ∧ (i 1).val < win0_22.index t (1 : Fin 2) * 1 + 1; omega

/-- The result array after the kernel's run is `G` of the gathered rows and the weights. -/
theorem final (c : Dev nD) : (dats m 0 c).arrAt 22 cfg0.N
    = (G (rows (F := Ideal) (m ((c : Thread nD τ).loc main_arg0)) (m ((c : Thread nD τ).loc main_arg1)))
        (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) :=
  (dats m 0 c).arrAt_eq_of_cover 22 _ (fun t _ => flushed_eq m c t) cover

/-- The kernel's run: the result array is `G` of the gathered rows and the weights, the arguments unchanged. -/
theorem run : θ_run defs (onTc (τ := τ) (main (F := Ideal))) ⟨m, fun _ => 0, ρ⟩ fun r => ∀ c : Dev nD,
      r.2.mem ((c : Thread nD τ).loc main_v37)
        = G (rows (F := Ideal) (m ((c : Thread nD τ).loc main_arg0)) (m ((c : Thread nD τ).loc main_arg1)))
            (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final m c), (h c).2⟩) (Value.run_blocks m ρ)

end Cert.KernelIdeal.KerVal

end
-- ==== Proof.RefDefs.lean ====
/-
  The reference's result as a function of its argument arrays, stage by stage: the gathered embedding rows, the
  matrix-factorisation score, the three layers, and the last dot product with the 257-vector. Each stage is the
  program's own operations applied to the stage before.
-/
import proofs.«137861_j89111981457842_1_alg».proof.Proof.Gen.ReferenceIdeal

noncomputable section

namespace Cert.ReferenceIdeal.RefVal

open Cert.ReferenceIdeal Cert.ReferenceIdeal.Facts₀ Cert.ReferenceIdeal.Facts Idealize.ShloMosaic

variable {F : FTy → Type} [FloatOps F]

/-- The row indices into the embedding table: `x + [0, 100000]`, a negative entry moved up by the table's 200000 rows,
    with a trailing unit axis. -/
def gatherIdx (x : (⟨S16384x2, .i32⟩ : BufTy).Contents (Elt F)) : (⟨S16384x2x1, .i32⟩ : BufTy).Contents (Elt F) :=
  broadcastInDim S16384x2x1 ![0, 1] bcast_S16384x2_S16384x2x1_0_1
    (select
      (cmpi .slt
        (addi x (broadcastInDim S16384x2 ![0, 1] bcast_S1x2_S16384x2_0_1 (broadcastInDim S1x2 ![1] bcast_S2_S1x2_1 (fun i => lit0 (S2.rowMajor i)))))
        (broadcastInDim S16384x2 ![] bcast_S_S16384x2 (constantI S_ 32 0#32)))
      (addi
        (addi x (broadcastInDim S16384x2 ![0, 1] bcast_S1x2_S16384x2_0_1 (broadcastInDim S1x2 ![1] bcast_S2_S1x2_1 (fun i => lit0 (S2.rowMajor i)))))
        (broadcastInDim S16384x2 ![] bcast_S_S16384x2 (constantI S_ 32 200000#32)))
      (addi x (broadcastInDim S16384x2 ![0, 1] bcast_S1x2_S16384x2_0_1 (broadcastInDim S1x2 ![1] bcast_S2_S1x2_1 (fun i => lit0 (S2.rowMajor i))))))

/-- The gathered embeddings, `[16384, 2, 256]`: for each batch row its user row and its item row of the table. -/
def gathered (x : (⟨S16384x2, .i32⟩ : BufTy).Contents (Elt F)) (emb : (⟨S200000x256, .f32⟩ : BufTy).Contents (Elt F)) : (⟨S16384x2x256, .f32⟩ : BufTy).Contents (Elt F) :=
  Host.gather gather_S200000x256_S16384x2x1_S16384x2x256_2_0_n_n_0_2_1256 emb (gatherIdx x)

/-- The same laid out as `[16384, 512]`: user embedding then item embedding in each row. -/
def rows (x : (⟨S16384x2, .i32⟩ : BufTy).Contents (Elt F)) (emb : (⟨S200000x256, .f32⟩ : BufTy).Contents (Elt F)) : (⟨S16384x512, .f32⟩ : BufTy).Contents (Elt F) :=
  shapeCast S16384x512 (gathered x emb) shapeCasts_S16384x2x256_S16384x512

/-- The score column `[16384, 1]`: the inner product of each row's user and item embeddings. -/
def score (e : (⟨S16384x2x256, .f32⟩ : BufTy).Contents (Elt F)) : (⟨S16384x1, .f32⟩ : BufTy).Contents (Elt F) :=
  broadcastInDim S16384x1 ![0] bcast_S16384_S16384x1_0
    (Host.reduceAdd
      (mulf
        (shapeCast S16384x256 (extractStridedSlice S16384x1x256 ![0, 0, 0] e slices_S16384x2x256_S16384x1x256_0_0_0) shapeCasts_S16384x1x256_S16384x256)
        (shapeCast S16384x256 (extractStridedSlice S16384x1x256 ![0, 1, 0] e slices_S16384x2x256_S16384x1x256_0_1_0) shapeCasts_S16384x1x256_S16384x256))
      (constant S_ .f32 0x00000000#32) reducesTo_S16384x256_S16384_d1 h_S_)

/-- Layer 1 on all rows: `g · (max (h·W + b) 0 − μ) · (v + ε)^(-1/2) + β`, the vectors broadcast along the rows. -/
def layer1 (h : (⟨S16384x512, .f32⟩ : BufTy).Contents (Elt F)) (W : (⟨S512x1024, .f32⟩ : BufTy).Contents (Elt F)) (b g be mu v : (⟨S1024, .f32⟩ : BufTy).Contents (Elt F)) : (⟨S16384x1024, .f32⟩ : BufTy).Contents (Elt F) :=
  addf (mulf (mulf (broadcastInDim S16384x1024 ![0, 1] bcast_S1x1024_S16384x1024_0_1 (broadcastInDim S1x1024 ![1] bcast_S1024_S1x1024_1 g))
      (subf (maximumf (addf (Host.dotGeneral dot_S16384x512_S512x1024_S16384x1024_1_0_0_1_n_n none h W) (broadcastInDim S16384x1024 ![0, 1] bcast_S1x1024_S16384x1024_0_1 (broadcastInDim S1x1024 ![1] bcast_S1024_S1x1024_1 b)))
          (broadcastInDim S16384x1024 ![] bcast_S_S16384x1024 (constant S_ .f32 0x00000000#32)))
        (broadcastInDim S16384x1024 ![0, 1] bcast_S1x1024_S16384x1024_0_1 (broadcastInDim S1x1024 ![1] bcast_S1024_S1x1024_1 mu))))
      (broadcastInDim S16384x1024 ![0, 1] bcast_S1x1024_S16384x1024_0_1 (broadcastInDim S1x1024 ![1] bcast_S1024_S1x1024_1 (Host.rsqrt (addf v (broadcastInDim S1024 ![] bcast_S_S1024 (constant S_ .f32 0x3727C5AC#32)))))))
    (broadcastInDim S16384x1024 ![0, 1] bcast_S1x1024_S16384x1024_0_1 (broadcastInDim S1x1024 ![1] bcast_S1024_S1x1024_1 be))

/-- Layer 2 on all rows: `g · (max (h·W + b) 0 − μ) · (v + ε)^(-1/2) + β`, the vectors broadcast along the rows. -/
def layer2 (h : (⟨S16384x1024, .f32⟩ : BufTy).Contents (Elt F)) (W : (⟨S1024x512, .f32⟩ : BufTy).Contents (Elt F)) (b g be mu v : (⟨S512, .f32⟩ : BufTy).Contents (Elt F)) : (⟨S16384x512, .f32⟩ : BufTy).Contents (Elt F) :=
  addf (mulf (mulf (broadcastInDim S16384x512 ![0, 1] bcast_S1x512_S16384x512_0_1 (broadcastInDim S1x512 ![1] bcast_S512_S1x512_1 g))
      (subf (maximumf (addf (Host.dotGeneral dot_S16384x1024_S1024x512_S16384x512_1_0_0_1_n_n none h W) (broadcastInDim S16384x512 ![0, 1] bcast_S1x512_S16384x512_0_1 (broadcastInDim S1x512 ![1] bcast_S512_S1x512_1 b)))
          (broadcastInDim S16384x512 ![] bcast_S_S16384x512 (constant S_ .f32 0x00000000#32)))
        (broadcastInDim S16384x512 ![0, 1] bcast_S1x512_S16384x512_0_1 (broadcastInDim S1x512 ![1] bcast_S512_S1x512_1 mu))))
      (broadcastInDim S16384x512 ![0, 1] bcast_S1x512_S16384x512_0_1 (broadcastInDim S1x512 ![1] bcast_S512_S1x512_1 (Host.rsqrt (addf v (broadcastInDim S512 ![] bcast_S_S512 (constant S_ .f32 0x3727C5AC#32)))))))
    (broadcastInDim S16384x512 ![0, 1] bcast_S1x512_S16384x512_0_1 (broadcastInDim S1x512 ![1] bcast_S512_S1x512_1 be))

/-- Layer 3 on all rows: `g · (max (h·W + b) 0 − μ) · (v + ε)^(-1/2) + β`, the vectors broadcast along the rows. -/
def layer3 (h : (⟨S16384x512, .f32⟩ : BufTy).Contents (Elt F)) (W : (⟨S512x256, .f32⟩ : BufTy).Contents (Elt F)) (b g be mu v : (⟨S256, .f32⟩ : BufTy).Contents (Elt F)) : (⟨S16384x256, .f32⟩ : BufTy).Contents (Elt F) :=
  addf (mulf (mulf (broadcastInDim S16384x256 ![0, 1] bcast_S1x256_S16384x256_0_1 (broadcastInDim S1x256 ![1] bcast_S256_S1x256_1 g))
      (subf (maximumf (addf (Host.dotGeneral dot_S16384x512_S512x256_S16384x256_1_0_0_1_n_n none h W) (broadcastInDim S16384x256 ![0, 1] bcast_S1x256_S16384x256_0_1 (broadcastInDim S1x256 ![1] bcast_S256_S1x256_1 b)))
          (broadcastInDim S16384x256 ![] bcast_S_S16384x256 (constant S_ .f32 0x00000000#32)))
        (broadcastInDim S16384x256 ![0, 1] bcast_S1x256_S16384x256_0_1 (broadcastInDim S1x256 ![1] bcast_S256_S1x256_1 mu))))
      (broadcastInDim S16384x256 ![0, 1] bcast_S1x256_S16384x256_0_1 (broadcastInDim S1x256 ![1] bcast_S256_S1x256_1 (Host.rsqrt (addf v (broadcastInDim S256 ![] bcast_S_S256 (constant S_ .f32 0x3727C5AC#32)))))))
    (broadcastInDim S16384x256 ![0, 1] bcast_S1x256_S16384x256_0_1 (broadcastInDim S1x256 ![1] bcast_S256_S1x256_1 be))

/-- The last step: the score column set before the third layer's output, the dot product with the 257-vector, the
    bias, the rectifier. -/
def head (sc : (⟨S16384x1, .f32⟩ : BufTy).Contents (Elt F)) (h3 : (⟨S16384x256, .f32⟩ : BufTy).Contents (Elt F)) (Wo : (⟨S257x1, .f32⟩ : BufTy).Contents (Elt F)) (bo : (⟨S1, .f32⟩ : BufTy).Contents (Elt F)) : (⟨S16384x1, .f32⟩ : BufTy).Contents (Elt F) :=
  maximumf
    (addf
      (Host.dotGeneral dot_S16384x257_S257x1_S16384x1_1_0_0_1_n_n none
        (concatenate S16384x257 1 [⟨S16384x1, sc⟩, ⟨S16384x256, h3⟩] concatenates_S16384x1_S16384x256_S16384x257_d1) Wo)
      (broadcastInDim S16384x1 ![0, 1] bcast_S1x1_S16384x1_0_1 (broadcastInDim S1x1 ![1] bcast_S1_S1x1_1 bo)))
    (broadcastInDim S16384x1 ![] bcast_S_S16384x1 (constant S_ .f32 0x00000000#32))

/-- The reference's result, from its 22 argument arrays. -/
def refOut (a0 : (⟨S16384x2, .i32⟩ : BufTy).Contents (Elt F)) (a1 : (⟨S200000x256, .f32⟩ : BufTy).Contents (Elt F))
    (a2 : (⟨S512x1024, .f32⟩ : BufTy).Contents (Elt F)) (a3 a4 a5 a6 a7 : (⟨S1024, .f32⟩ : BufTy).Contents (Elt F))
    (a8 : (⟨S1024x512, .f32⟩ : BufTy).Contents (Elt F)) (a9 a10 a11 a12 a13 : (⟨S512, .f32⟩ : BufTy).Contents (Elt F))
    (a14 : (⟨S512x256, .f32⟩ : BufTy).Contents (Elt F)) (a15 a16 a17 a18 a19 : (⟨S256, .f32⟩ : BufTy).Contents (Elt F))
    (a20 : (⟨S257x1, .f32⟩ : BufTy).Contents (Elt F)) (a21 : (⟨S1, .f32⟩ : BufTy).Contents (Elt F)) : (⟨S16384x1, .f32⟩ : BufTy).Contents (Elt F) :=
  head (score (gathered a0 a1))
    (layer3 (layer2 (layer1 (rows a0 a1) a2 a3 a4 a5 a6 a7) a8 a9 a10 a11 a12 a13) a14 a15 a16 a17 a18 a19)
    a20 a21

end Cert.ReferenceIdeal.RefVal

end
-- ==== Proof.RefRun.lean ====
/-
  The reference's @main as one straight line of host operations (the four rectifier calls written out at their call
  sites), and its run: every weakly fair execution terminates with the result buffer at `refOut` of the argument
  arrays and the arguments unchanged.

  The line is cut at the network's own joints: the embedding rows and the score; layer 1; layer 2 (in two pieces: @main is
  printed as two definitions that meet inside it); layer 3; the last dot product. What a piece leaves in the buffers a
  later piece reads is a function of what it found in the buffers it reads; a buffer a piece does not write keeps its
  contents. Composing the pieces gives the result buffer as `refOut` of the argument buffers.
-/
import proofs.«137861_j89111981457842_1_alg».proof.Proof.Gen.ReferenceIdeal
import proofs.«137861_j89111981457842_1_alg».proof.Proof.RefDefs
import Idealize.ShloMosaic.Lib.StableHlo.Run

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ## The operations, piece by piece -/

/-- The embedding rows: the shifted row indices, the gather, the two halves' product summed to the score column, and the rows laid out `[16384, 512]`. -/
abbrev opsA : List (HloOp τ sig (Elt F)) :=
  [ nullary main_c (fun i => lit0 (S2.rowMajor i)),
    unary main_c main_v0 (broadcastInDim S1x2 ![1] bcast_S2_S1x2_1 : (⟨S2, .i32⟩ : BufTy).Contents (Elt F) → (⟨S1x2, .i32⟩ : BufTy).Contents (Elt F)),
    unary main_v0 main_v1 (broadcastInDim S16384x2 ![0, 1] bcast_S1x2_S16384x2_0_1 : (⟨S1x2, .i32⟩ : BufTy).Contents (Elt F) → (⟨S16384x2, .i32⟩ : BufTy).Contents (Elt F)),
    binary main_arg0 main_v1 main_v2 (addi : (⟨S16384x2, .i32⟩ : BufTy).Contents (Elt F) → (⟨S16384x2, .i32⟩ : BufTy).Contents (Elt F) → (⟨S16384x2, .i32⟩ : BufTy).Contents (Elt F)),
    nullary main_c_0 (constantI S_ 32 0#32),
    unary main_c_0 main_v3 (broadcastInDim S16384x2 ![] bcast_S_S16384x2 : (⟨S_, .i32⟩ : BufTy).Contents (Elt F) → (⟨S16384x2, .i32⟩ : BufTy).Contents (Elt F)),
    binary main_v2 main_v3 main_v4 (cmpi .slt : (⟨S16384x2, .i32⟩ : BufTy).Contents (Elt F) → (⟨S16384x2, .i32⟩ : BufTy).Contents (Elt F) → (⟨S16384x2, .i1⟩ : BufTy).Contents (Elt F)),
    nullary main_c_1 (constantI S_ 32 200000#32),
    unary main_c_1 main_v5 (broadcastInDim S16384x2 ![] bcast_S_S16384x2 : (⟨S_, .i32⟩ : BufTy).Contents (Elt F) → (⟨S16384x2, .i32⟩ : BufTy).Contents (Elt F)),
    binary main_v2 main_v5 main_v6 (addi : (⟨S16384x2, .i32⟩ : BufTy).Contents (Elt F) → (⟨S16384x2, .i32⟩ : BufTy).Contents (Elt F) → (⟨S16384x2, .i32⟩ : BufTy).Contents (Elt F)),
    ternary main_v4 main_v6 main_v2 main_v7 (select : (⟨S16384x2, .i1⟩ : BufTy).Contents (Elt F) → (⟨S16384x2, .i32⟩ : BufTy).Contents (Elt F) → (⟨S16384x2, .i32⟩ : BufTy).Contents (Elt F) → (⟨S16384x2, .i32⟩ : BufTy).Contents (Elt F)),
    unary main_v7 main_v8 (broadcastInDim S16384x2x1 ![0, 1] bcast_S16384x2_S16384x2x1_0_1 : (⟨S16384x2, .i32⟩ : BufTy).Contents (Elt F) → (⟨S16384x2x1, .i32⟩ : BufTy).Contents (Elt F)),
    binary main_arg1 main_v8 main_v9 ((fun x i => Host.gather gather_S200000x256_S16384x2x1_S16384x2x256_2_0_n_n_0_2_1256 x i) : (⟨S200000x256, .f32⟩ : BufTy).Contents (Elt F) → (⟨S16384x2x1, .i32⟩ : BufTy).Contents (Elt F) → (⟨S16384x2x256, .f32⟩ : BufTy).Contents (Elt F)),
    unary main_v9 main_v10 ((extractStridedSlice S16384x1x256 ![0, 0, 0] · slices_S16384x2x256_S16384x1x256_0_0_0) : (⟨S16384x2x256, .f32⟩ : BufTy).Contents (Elt F) → (⟨S16384x1x256, .f32⟩ : BufTy).Contents (Elt F)),
    reshape main_v10 main_v11 rfl shapeCasts_S16384x1x256_S16384x256,
    unary main_v9 main_v12 ((extractStridedSlice S16384x1x256 ![0, 1, 0] · slices_S16384x2x256_S16384x1x256_0_1_0) : (⟨S16384x2x256, .f32⟩ : BufTy).Contents (Elt F) → (⟨S16384x1x256, .f32⟩ : BufTy).Contents (Elt F)),
    reshape main_v12 main_v13 rfl shapeCasts_S16384x1x256_S16384x256,
    binary main_v11 main_v13 main_v14 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v14 main_cst main_v15 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v15 main_v16 (broadcastInDim S16384x1 ![0] bcast_S16384_S16384x1_0 : (⟨S16384, .f32⟩ : BufTy).Contents (Elt F) → (⟨S16384x1, .f32⟩ : BufTy).Contents (Elt F)),
    reshape main_v9 main_v17 rfl shapeCasts_S16384x2x256_S16384x512 ]

/-- Layer 1: the dense map, the bias, the rectifier (`max · 0`, written out), and the normalisation with the running statistics. -/
abbrev opsB : List (HloOp τ sig (Elt F)) :=
  [ binary main_v17 main_arg2 main_v18 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg3 main_v19 (broadcastInDim S1x1024 ![1] bcast_S1024_S1x1024_1 : (⟨S1024, .f32⟩ : BufTy).Contents (Elt F) → (⟨S1x1024, .f32⟩ : BufTy).Contents (Elt F)),
    unary main_v19 main_v20 (broadcastInDim S16384x1024 ![0, 1] bcast_S1x1024_S16384x1024_0_1 : (⟨S1x1024, .f32⟩ : BufTy).Contents (Elt F) → (⟨S16384x1024, .f32⟩ : BufTy).Contents (Elt F)),
    binary main_v18 main_v20 main_v21 (addf : (⟨S16384x1024, .f32⟩ : BufTy).Contents (Elt F) → (⟨S16384x1024, .f32⟩ : BufTy).Contents (Elt F) → (⟨S16384x1024, .f32⟩ : BufTy).Contents (Elt F)),
    TRef.nullary main_call0.cst (constant S_ .f32 0x00000000#32),
    TRef.unary main_call0.cst main_call0.v0 (broadcastInDim S16384x1024 ![] bcast_S_S16384x1024),
    TRef.binary (.of main_v21) main_call0.v0 main_call0.v1 maximumf,
    unary main_arg6 main_v23 (broadcastInDim S1x1024 ![1] bcast_S1024_S1x1024_1 : (⟨S1024, .f32⟩ : BufTy).Contents (Elt F) → (⟨S1x1024, .f32⟩ : BufTy).Contents (Elt F)),
    unary main_v23 main_v24 (broadcastInDim S16384x1024 ![0, 1] bcast_S1x1024_S16384x1024_0_1 : (⟨S1x1024, .f32⟩ : BufTy).Contents (Elt F) → (⟨S16384x1024, .f32⟩ : BufTy).Contents (Elt F)),
    binary main_v22 main_v24 main_v25 (subf : (⟨S16384x1024, .f32⟩ : BufTy).Contents (Elt F) → (⟨S16384x1024, .f32⟩ : BufTy).Contents (Elt F) → (⟨S16384x1024, .f32⟩ : BufTy).Contents (Elt F)),
    unary main_arg4 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S16384x1024 ![0, 1] bcast_S1x1024_S16384x1024_0_1 : (⟨S1x1024, .f32⟩ : BufTy).Contents (Elt F) → (⟨S16384x1024, .f32⟩ : BufTy).Contents (Elt F)),
    binary main_v27 main_v25 main_v28 (mulf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x3727C5AC#32),
    unary main_cst_2 main_v29 (broadcastInDim S1024 ![] bcast_S_S1024 : (⟨S_, .f32⟩ : BufTy).Contents (Elt F) → (⟨S1024, .f32⟩ : BufTy).Contents (Elt F)),
    binary main_arg7 main_v29 main_v30 (addf : (⟨S1024, .f32⟩ : BufTy).Contents (Elt F) → (⟨S1024, .f32⟩ : BufTy).Contents (Elt F) → (⟨S1024, .f32⟩ : BufTy).Contents (Elt F)),
    unary main_v30 main_v31 (Host.rsqrt : (⟨S1024, .f32⟩ : BufTy).Contents (Elt F) → (⟨S1024, .f32⟩ : BufTy).Contents (Elt F)),
    unary main_v31 main_v32 (broadcastInDim S1x1024 ![1] bcast_S1024_S1x1024_1 : (⟨S1024, .f32⟩ : BufTy).Contents (Elt F) → (⟨S1x1024, .f32⟩ : BufTy).Contents (Elt F)),
    unary main_v32 main_v33 (broadcastInDim S16384x1024 ![0, 1] bcast_S1x1024_S16384x1024_0_1 : (⟨S1x1024, .f32⟩ : BufTy).Contents (Elt F) → (⟨S16384x1024, .f32⟩ : BufTy).Contents (Elt F)),
    binary main_v28 main_v33 main_v34 (mulf : (⟨S16384x1024, .f32⟩ : BufTy).Contents (Elt F) → (⟨S16384x1024, .f32⟩ : BufTy).Contents (Elt F) → (⟨S16384x1024, .f32⟩ : BufTy).Contents (Elt F)),
    unary main_arg5 main_v35 (broadcastInDim S1x1024 ![1] bcast_S1024_S1x1024_1 : (⟨S1024, .f32⟩ : BufTy).Contents (Elt F) → (⟨S1x1024, .f32⟩ : BufTy).Contents (Elt F)),
    unary main_v35 main_v36 (broadcastInDim S16384x1024 ![0, 1] bcast_S1x1024_S16384x1024_0_1 : (⟨S1x1024, .f32⟩ : BufTy).Contents (Elt F) → (⟨S16384x1024, .f32⟩ : BufTy).Contents (Elt F)),
    binary main_v34 main_v36 main_v37 (addf : (⟨S16384x1024, .f32⟩ : BufTy).Contents (Elt F) → (⟨S16384x1024, .f32⟩ : BufTy).Contents (Elt F) → (⟨S16384x1024, .f32⟩ : BufTy).Contents (Elt F)) ]

/-- Layer 2 up to its scale: the dense map, the bias, the rectifier, the centred and scaled value, and `(v + ε)^(-1/2)` broadcast along the rows. -/
abbrev opsC1 : List (HloOp τ sig (Elt F)) :=
  [ binary main_v37 main_arg8 main_v38 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg9 main_v39 (broadcastInDim S1x512 ![1] bcast_S512_S1x512_1 : (⟨S512, .f32⟩ : BufTy).Contents (Elt F) → (⟨S1x512, .f32⟩ : BufTy).Contents (Elt F)),
    unary main_v39 main_v40 (broadcastInDim S16384x512 ![0, 1] bcast_S1x512_S16384x512_0_1 : (⟨S1x512, .f32⟩ : BufTy).Contents (Elt F) → (⟨S16384x512, .f32⟩ : BufTy).Contents (Elt F)),
    binary main_v38 main_v40 main_v41 (addf : (⟨S16384x512, .f32⟩ : BufTy).Contents (Elt F) → (⟨S16384x512, .f32⟩ : BufTy).Contents (Elt F) → (⟨S16384x512, .f32⟩ : BufTy).Contents (Elt F)),
    TRef.nullary main_call1.cst (constant S_ .f32 0x00000000#32),
    TRef.unary main_call1.cst main_call1.v0 (broadcastInDim S16384x512 ![] bcast_S_S16384x512),
    TRef.binary (.of main_v41) main_call1.v0 main_call1.v1 maximumf,
    unary main_arg12 main_v43 (broadcastInDim S1x512 ![1] bcast_S512_S1x512_1 : (⟨S512, .f32⟩ : BufTy).Contents (Elt F) → (⟨S1x512, .f32⟩ : BufTy).Contents (Elt F)),
    unary main_v43 main_v44 (broadcastInDim S16384x512 ![0, 1] bcast_S1x512_S16384x512_0_1 : (⟨S1x512, .f32⟩ : BufTy).Contents (Elt F) → (⟨S16384x512, .f32⟩ : BufTy).Contents (Elt F)),
    binary main_v42 main_v44 main_v45 (subf : (⟨S16384x512, .f32⟩ : BufTy).Contents (Elt F) → (⟨S16384x512, .f32⟩ : BufTy).Contents (Elt F) → (⟨S16384x512, .f32⟩ : BufTy).Contents (Elt F)),
    unary main_arg10 main_v46 (broadcastInDim S1x512 ![1] bcast_S512_S1x512_1 : (⟨S512, .f32⟩ : BufTy).Contents (Elt F) → (⟨S1x512, .f32⟩ : BufTy).Contents (Elt F)),
    unary main_v46 main_v47 (broadcastInDim S16384x512 ![0, 1] bcast_S1x512_S16384x512_0_1 : (⟨S1x512, .f32⟩ : BufTy).Contents (Elt F) → (⟨S16384x512, .f32⟩ : BufTy).Contents (Elt F)),
    binary main_v47 main_v45 main_v48 (mulf : (⟨S16384x512, .f32⟩ : BufTy).Contents (Elt F) → (⟨S16384x512, .f32⟩ : BufTy).Contents (Elt F) → (⟨S16384x512, .f32⟩ : BufTy).Contents (Elt F)),
    nullary main_cst_3 (constant S_ .f32 0x3727C5AC#32),
    unary main_cst_3 main_v49 (broadcastInDim S512 ![] bcast_S_S512 : (⟨S_, .f32⟩ : BufTy).Contents (Elt F) → (⟨S512, .f32⟩ : BufTy).Contents (Elt F)),
    binary main_arg13 main_v49 main_v50 (addf : (⟨S512, .f32⟩ : BufTy).Contents (Elt F) → (⟨S512, .f32⟩ : BufTy).Contents (Elt F) → (⟨S512, .f32⟩ : BufTy).Contents (Elt F)),
    unary main_v50 main_v51 (Host.rsqrt : (⟨S512, .f32⟩ : BufTy).Contents (Elt F) → (⟨S512, .f32⟩ : BufTy).Contents (Elt F)),
    unary main_v51 main_v52 (broadcastInDim S1x512 ![1] bcast_S512_S1x512_1 : (⟨S512, .f32⟩ : BufTy).Contents (Elt F) → (⟨S1x512, .f32⟩ : BufTy).Contents (Elt F)),
    unary main_v52 main_v53 (broadcastInDim S16384x512 ![0, 1] bcast_S1x512_S16384x512_0_1 : (⟨S1x512, .f32⟩ : BufTy).Contents (Elt F) → (⟨S16384x512, .f32⟩ : BufTy).Contents (Elt F)) ]

/-- Layer 2's end: the product with `(v + ε)^(-1/2)` and the shift `β`. -/
abbrev opsC2 : List (HloOp τ sig (Elt F)) :=
  [ binary main_v48 main_v53 main_v54 (mulf : (⟨S16384x512, .f32⟩ : BufTy).Contents (Elt F) → (⟨S16384x512, .f32⟩ : BufTy).Contents (Elt F) → (⟨S16384x512, .f32⟩ : BufTy).Contents (Elt F)),
    unary main_arg11 main_v55 (broadcastInDim S1x512 ![1] bcast_S512_S1x512_1 : (⟨S512, .f32⟩ : BufTy).Contents (Elt F) → (⟨S1x512, .f32⟩ : BufTy).Contents (Elt F)),
    unary main_v55 main_v56 (broadcastInDim S16384x512 ![0, 1] bcast_S1x512_S16384x512_0_1 : (⟨S1x512, .f32⟩ : BufTy).Contents (Elt F) → (⟨S16384x512, .f32⟩ : BufTy).Contents (Elt F)),
    binary main_v54 main_v56 main_v57 (addf : (⟨S16384x512, .f32⟩ : BufTy).Contents (Elt F) → (⟨S16384x512, .f32⟩ : BufTy).Contents (Elt F) → (⟨S16384x512, .f32⟩ : BufTy).Contents (Elt F)) ]

/-- Layer 3: the dense map, the bias, the rectifier, and the normalisation. -/
abbrev opsD : List (HloOp τ sig (Elt F)) :=
  [ binary main_v57 main_arg14 main_v58 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg15 main_v59 (broadcastInDim S1x256 ![1] bcast_S256_S1x256_1 : (⟨S256, .f32⟩ : BufTy).Contents (Elt F) → (⟨S1x256, .f32⟩ : BufTy).Contents (Elt F)),
    unary main_v59 main_v60 (broadcastInDim S16384x256 ![0, 1] bcast_S1x256_S16384x256_0_1 : (⟨S1x256, .f32⟩ : BufTy).Contents (Elt F) → (⟨S16384x256, .f32⟩ : BufTy).Contents (Elt F)),
    binary main_v58 main_v60 main_v61 (addf : (⟨S16384x256, .f32⟩ : BufTy).Contents (Elt F) → (⟨S16384x256, .f32⟩ : BufTy).Contents (Elt F) → (⟨S16384x256, .f32⟩ : BufTy).Contents (Elt F)),
    TRef.nullary main_call2.cst (constant S_ .f32 0x00000000#32),
    TRef.unary main_call2.cst main_call2.v0 (broadcastInDim S16384x256 ![] bcast_S_S16384x256),
    TRef.binary (.of main_v61) main_call2.v0 main_call2.v1 maximumf,
    unary main_arg18 main_v63 (broadcastInDim S1x256 ![1] bcast_S256_S1x256_1 : (⟨S256, .f32⟩ : BufTy).Contents (Elt F) → (⟨S1x256, .f32⟩ : BufTy).Contents (Elt F)),
    unary main_v63 main_v64 (broadcastInDim S16384x256 ![0, 1] bcast_S1x256_S16384x256_0_1 : (⟨S1x256, .f32⟩ : BufTy).Contents (Elt F) → (⟨S16384x256, .f32⟩ : BufTy).Contents (Elt F)),
    binary main_v62 main_v64 main_v65 (subf : (⟨S16384x256, .f32⟩ : BufTy).Contents (Elt F) → (⟨S16384x256, .f32⟩ : BufTy).Contents (Elt F) → (⟨S16384x256, .f32⟩ : BufTy).Contents (Elt F)),
    unary main_arg16 main_v66 (broadcastInDim S1x256 ![1] bcast_S256_S1x256_1 : (⟨S256, .f32⟩ : BufTy).Contents (Elt F) → (⟨S1x256, .f32⟩ : BufTy).Contents (Elt F)),
    unary main_v66 main_v67 (broadcastInDim S16384x256 ![0, 1] bcast_S1x256_S16384x256_0_1 : (⟨S1x256, .f32⟩ : BufTy).Contents (Elt F) → (⟨S16384x256, .f32⟩ : BufTy).Contents (Elt F)),
    binary main_v67 main_v65 main_v68 (mulf : (⟨S16384x256, .f32⟩ : BufTy).Contents (Elt F) → (⟨S16384x256, .f32⟩ : BufTy).Contents (Elt F) → (⟨S16384x256, .f32⟩ : BufTy).Contents (Elt F)),
    nullary main_cst_4 (constant S_ .f32 0x3727C5AC#32),
    unary main_cst_4 main_v69 (broadcastInDim S256 ![] bcast_S_S256 : (⟨S_, .f32⟩ : BufTy).Contents (Elt F) → (⟨S256, .f32⟩ : BufTy).Contents (Elt F)),
    binary main_arg19 main_v69 main_v70 (addf : (⟨S256, .f32⟩ : BufTy).Contents (Elt F) → (⟨S256, .f32⟩ : BufTy).Contents (Elt F) → (⟨S256, .f32⟩ : BufTy).Contents (Elt F)),
    unary main_v70 main_v71 (Host.rsqrt : (⟨S256, .f32⟩ : BufTy).Contents (Elt F) → (⟨S256, .f32⟩ : BufTy).Contents (Elt F)),
    unary main_v71 main_v72 (broadcastInDim S1x256 ![1] bcast_S256_S1x256_1 : (⟨S256, .f32⟩ : BufTy).Contents (Elt F) → (⟨S1x256, .f32⟩ : BufTy).Contents (Elt F)),
    unary main_v72 main_v73 (broadcastInDim S16384x256 ![0, 1] bcast_S1x256_S16384x256_0_1 : (⟨S1x256, .f32⟩ : BufTy).Contents (Elt F) → (⟨S16384x256, .f32⟩ : BufTy).Contents (Elt F)),
    binary main_v68 main_v73 main_v74 (mulf : (⟨S16384x256, .f32⟩ : BufTy).Contents (Elt F) → (⟨S16384x256, .f32⟩ : BufTy).Contents (Elt F) → (⟨S16384x256, .f32⟩ : BufTy).Contents (Elt F)),
    unary main_arg17 main_v75 (broadcastInDim S1x256 ![1] bcast_S256_S1x256_1 : (⟨S256, .f32⟩ : BufTy).Contents (Elt F) → (⟨S1x256, .f32⟩ : BufTy).Contents (Elt F)),
    unary main_v75 main_v76 (broadcastInDim S16384x256 ![0, 1] bcast_S1x256_S16384x256_0_1 : (⟨S1x256, .f32⟩ : BufTy).Contents (Elt F) → (⟨S16384x256, .f32⟩ : BufTy).Contents (Elt F)),
    binary main_v74 main_v76 main_v77 (addf : (⟨S16384x256, .f32⟩ : BufTy).Contents (Elt F) → (⟨S16384x256, .f32⟩ : BufTy).Contents (Elt F) → (⟨S16384x256, .f32⟩ : BufTy).Contents (Elt F)) ]

/-- The last step: the score column set before layer 3's output, the dot product with the 257-vector, the bias, the rectifier. -/
abbrev opsE : List (HloOp τ sig (Elt F)) :=
  [ binary main_v16 main_v77 main_v78 ((fun a b => concatenate S16384x257 1 [⟨S16384x1, a⟩, ⟨S16384x256, b⟩] concatenates_S16384x1_S16384x256_S16384x257_d1) : (⟨S16384x1, .f32⟩ : BufTy).Contents (Elt F) → (⟨S16384x256, .f32⟩ : BufTy).Contents (Elt F) → (⟨S16384x257, .f32⟩ : BufTy).Contents (Elt F)),
    binary main_v78 main_arg20 main_v79 ((fun l r => Host.dotGeneral dot_S16384x257_S257x1_S16384x1_1_0_0_1_n_n none l r) : (⟨S16384x257, .f32⟩ : BufTy).Contents (Elt F) → (⟨S257x1, .f32⟩ : BufTy).Contents (Elt F) → (⟨S16384x1, .f32⟩ : BufTy).Contents (Elt F)),
    unary main_arg21 main_v80 (broadcastInDim S1x1 ![1] bcast_S1_S1x1_1 : (⟨S1, .f32⟩ : BufTy).Contents (Elt F) → (⟨S1x1, .f32⟩ : BufTy).Contents (Elt F)),
    unary main_v80 main_v81 (broadcastInDim S16384x1 ![0, 1] bcast_S1x1_S16384x1_0_1 : (⟨S1x1, .f32⟩ : BufTy).Contents (Elt F) → (⟨S16384x1, .f32⟩ : BufTy).Contents (Elt F)),
    binary main_v79 main_v81 main_v82 (addf : (⟨S16384x1, .f32⟩ : BufTy).Contents (Elt F) → (⟨S16384x1, .f32⟩ : BufTy).Contents (Elt F) → (⟨S16384x1, .f32⟩ : BufTy).Contents (Elt F)),
    TRef.nullary main_call3.cst (constant S_ .f32 0x00000000#32),
    TRef.unary main_call3.cst main_call3.v0 (broadcastInDim S16384x1 ![] bcast_S_S16384x1),
    TRef.binary (.of main_v82) main_call3.v0 main_call3.v1 maximumf ]

/-- The operations of the first half of the program's text. -/
abbrev ops0 : List (HloOp τ sig (Elt F)) := opsA ++ opsB ++ opsC1

/-- The operations of the second half of the program's text. -/
abbrev ops1 : List (HloOp τ sig (Elt F)) := opsC2 ++ opsD ++ opsE

/-- @main's 99 operations, in order. -/
abbrev ops : List (HloOp τ sig (Elt F)) := ops0 ++ ops1

/-! ## @main is that line -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem opsA_sub : (opsA : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., unary_bufs_sub ..,
    reshape_bufs_sub .., unary_bufs_sub .., reshape_bufs_sub .., binary_bufs_sub .., nullary_bufs_sub .., binary_bufs_sub .., unary_bufs_sub ..,
    reshape_bufs_sub ..⟩
theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub .., unary_bufs_sub .., unary_bufs_sub ..,
    binary_bufs_sub ..⟩
theorem opsB_fresh : ∀ op ∈ (opsB : List (HloOp τ sig (Elt F))), op.fresh = ∅ := by
  intro _ h; (repeat (cases h with | head => rfl | tail _ h => ?_)); exact nomatch h

theorem opsC1_sub : (opsC1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub .., nullary_bufs_sub ..,
    unary_bufs_sub .., binary_bufs_sub .., unary_bufs_sub .., unary_bufs_sub .., unary_bufs_sub ..⟩
theorem opsC1_fresh : ∀ op ∈ (opsC1 : List (HloOp τ sig (Elt F))), op.fresh = ∅ := by
  intro _ h; (repeat (cases h with | head => rfl | tail _ h => ?_)); exact nomatch h

theorem opsC2_sub : (opsC2 : List (HloOp τ sig (Elt F))).Forall fun op => op.bufs ⊆ tcRefs τ sig :=
  ⟨binary_bufs_sub .., unary_bufs_sub .., unary_bufs_sub .., binary_bufs_sub ..⟩
theorem opsC2_fresh : ∀ op ∈ (opsC2 : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub .., unary_bufs_sub .., unary_bufs_sub ..,
    binary_bufs_sub ..⟩
theorem opsD_fresh : ∀ op ∈ (opsD : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub ..,
    binary_bufs_sub ..⟩
theorem opsE_fresh : ∀ op ∈ (opsE : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_append.mpr ⟨List.forall_append.mpr ⟨List.forall_append.mpr ⟨opsA_sub, opsB_sub⟩, opsC1_sub⟩,
    List.forall_append.mpr ⟨List.forall_append.mpr ⟨opsC2_sub, opsD_sub⟩, opsE_sub⟩⟩

theorem ops_fresh : ∀ op ∈ (ops : List (HloOp τ sig (Elt F))), op.fresh = ∅ := by
  intro op h
  simp only [List.mem_append] at h
  rcases h with ((h | h) | h) | ((h | h) | h)
  exacts [opsA_fresh op h, opsB_fresh op h, opsC1_fresh op h, opsC2_fresh op h, opsD_fresh op h, opsE_fresh op h]

/-! ## What each piece writes -/

/-- One operation's written buffer is in the list. -/
local macro "one_write" : term =>
  `(by simp only [nullary_writes, unary_writes, binary_writes, ternary_writes, reshape_writes, Finset.singleton_subset_iff, List.mem_toFinset]; exact List.mem_map_of_mem (by decide))

/-- The buffers the operations of `opsA` write, in order. -/
abbrev opsA_W : List (Ref sig .tc) := [main_c, main_v0, main_v1, main_v2, main_c_0, main_v3, main_v4, main_c_1, main_v5, main_v6, main_v7, main_v8, main_v9, main_v10, main_v11, main_v12, main_v13, main_v14, main_cst, main_v15, main_v16, main_v17]
theorem opsA_writes : (opsA : List (HloOp τ sig (Elt F))).Forall fun op => op.writes ⊆ (opsA_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write, one_write⟩

/-- The buffers the operations of `opsB` write, in order. -/
abbrev opsB_W : List (Ref sig .tc) := [main_v18, main_v19, main_v20, main_v21, main_call0_cst, main_call0_v0, main_v22, main_v23, main_v24, main_v25, main_v26, main_v27, main_v28, main_cst_2, main_v29, main_v30, main_v31, main_v32, main_v33, main_v34, main_v35, main_v36, main_v37]
theorem opsB_writes : (opsB : List (HloOp τ sig (Elt F))).Forall fun op => op.writes ⊆ (opsB_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write, one_write, one_write⟩

/-- The buffers the operations of `opsC1` write, in order. -/
abbrev opsC1_W : List (Ref sig .tc) := [main_v38, main_v39, main_v40, main_v41, main_call1_cst, main_call1_v0, main_v42, main_v43, main_v44, main_v45, main_v46, main_v47, main_v48, main_cst_3, main_v49, main_v50, main_v51, main_v52, main_v53]
theorem opsC1_writes : (opsC1 : List (HloOp τ sig (Elt F))).Forall fun op => op.writes ⊆ (opsC1_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write⟩

/-- The buffers the operations of `opsC2` write, in order. -/
abbrev opsC2_W : List (Ref sig .tc) := [main_v54, main_v55, main_v56, main_v57]
theorem opsC2_writes : (opsC2 : List (HloOp τ sig (Elt F))).Forall fun op => op.writes ⊆ (opsC2_W.map (Proc.devRef (τ := τ) .tc)).toFinset := by
  simp only [List.Forall]
  exact ⟨one_write, one_write, one_write, one_write⟩

/-- The buffers the operations of `opsD` write, in order. -/
abbrev opsD_W : List (Ref sig .tc) := [main_v58, main_v59, main_v60, main_v61, main_call2_cst, main_call2_v0, main_v62, main_v63, main_v64, main_v65, main_v66, main_v67, main_v68, main_cst_4, main_v69, main_v70, main_v71, main_v72, main_v73, main_v74, main_v75, main_v76, main_v77]
theorem opsD_writes : (opsD : List (HloOp τ sig (Elt F))).Forall fun op => op.writes ⊆ (opsD_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write, one_write, one_write⟩

/-- The buffers the operations of `opsE` write, in order. -/
abbrev opsE_W : List (Ref sig .tc) := [main_v78, main_v79, main_v80, main_v81, main_v82, main_call3_cst, main_call3_v0, main_v83]
theorem opsE_writes : (opsE : List (HloOp τ sig (Elt F))).Forall fun op => op.writes ⊆ (opsE_W.map (Proc.devRef (τ := τ) .tc)).toFinset := by
  simp only [List.Forall]
  exact ⟨one_write, one_write, one_write, one_write, one_write, one_write, one_write, one_write⟩

/-! ## The buffers after each piece -/

/-- Running one line after another is running the second from what the first leaves. -/
theorem after_append (l₁ l₂ : List (HloOp τ sig (Elt F))) (W : Valuation τ sig (Elt F)) : after (l₁ ++ l₂) W = after l₂ (after l₁ W) := by
  induction l₁ generalizing W with
  | nil => rfl
  | cons op l ih => exact ih (op.result W)

/-- The buffers after the embedding piece, from contents `W`. -/
def stA (W : Valuation τ sig (Elt F)) : Valuation τ sig (Elt F) := after opsA W
/-- The buffers after layer 1's piece, from contents `W`. -/
def stB (W : Valuation τ sig (Elt F)) : Valuation τ sig (Elt F) := after opsB W
/-- The buffers after layer 2's two pieces, from contents `W`. -/
def stC (W : Valuation τ sig (Elt F)) : Valuation τ sig (Elt F) := after opsC2 (after opsC1 W)
/-- The buffers after layer 3's piece, from contents `W`. -/
def stD (W : Valuation τ sig (Elt F)) : Valuation τ sig (Elt F) := after opsD W
/-- The buffers after the last piece, from contents `W`. -/
def stE (W : Valuation τ sig (Elt F)) : Valuation τ sig (Elt F) := after opsE W

/-- The whole line is the five pieces one after another. -/
theorem after_ops (V : Valuation τ sig (Elt F)) : after ops V = stE (stD (stC (stB (stA V)))) := by
  unfold stE stD stC stB stA
  simp only [ops, ops0, ops1, after_append]

/-! A buffer a piece does not write keeps its contents through it. -/

theorem stA_keep (W : Valuation τ sig (Elt F)) (r : Ref sig .tc) (h : r ∉ opsA_W) : stA W (no_index (Proc.devRef .tc r)) = W (Proc.devRef .tc r) :=
  after_of_writes_sub opsA W opsA_writes h
theorem stB_keep (W : Valuation τ sig (Elt F)) (r : Ref sig .tc) (h : r ∉ opsB_W) : stB W (no_index (Proc.devRef .tc r)) = W (Proc.devRef .tc r) :=
  after_of_writes_sub opsB W opsB_writes h
theorem stC_keep (W : Valuation τ sig (Elt F)) (r : Ref sig .tc) (h₁ : r ∉ opsC1_W) (h₂ : r ∉ opsC2_W) : stC W (no_index (Proc.devRef .tc r)) = W (Proc.devRef .tc r) :=
  (after_of_writes_sub opsC2 _ opsC2_writes h₂).trans (after_of_writes_sub opsC1 W opsC1_writes h₁)
theorem stD_keep (W : Valuation τ sig (Elt F)) (r : Ref sig .tc) (h : r ∉ opsD_W) : stD W (no_index (Proc.devRef .tc r)) = W (Proc.devRef .tc r) :=
  after_of_writes_sub opsD W opsD_writes h
theorem stE_keep (W : Valuation τ sig (Elt F)) (r : Ref sig .tc) (h : r ∉ opsE_W) : stE W (no_index (Proc.devRef .tc r)) = W (Proc.devRef .tc r) :=
  after_of_writes_sub opsE W opsE_writes h

/-! What each piece leaves in the buffers a later piece reads: the stage's function (`score`, `rows`, `layer1` …) of what
    the piece found in the buffers it reads. Each is read off the operations in order; the rectifier's operations carry
    their values along an identity of types, which is the identity. -/

set_option maxRecDepth 8192 in
set_option maxHeartbeats 2000000 in
theorem stA_v16 (W : Valuation τ sig (Elt F)) : stA W (no_index (Proc.devRef .tc main_v16)) = score (gathered (W (Proc.devRef .tc main_arg0)) (W (Proc.devRef .tc main_arg1))) := by
  unfold stA
  simp only [opsA]
  after_results_simp
  rfl

set_option maxRecDepth 8192 in
set_option maxHeartbeats 2000000 in
theorem stA_v17 (W : Valuation τ sig (Elt F)) : stA W (no_index (Proc.devRef .tc main_v17)) = rows (W (Proc.devRef .tc main_arg0)) (W (Proc.devRef .tc main_arg1)) := by
  unfold stA
  simp only [opsA]
  after_results_simp
  rfl

set_option maxRecDepth 8192 in
set_option maxHeartbeats 2000000 in
theorem stB_v37 (W : Valuation τ sig (Elt F)) : stB W (no_index (Proc.devRef .tc main_v37))
    = layer1 (W (Proc.devRef .tc main_v17)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold stB
  simp only [opsB]
  after_results_simp <;> (try simp only [TRef.ofBuf, TRef.toBuf, cast_eq]) <;> rfl

set_option maxRecDepth 8192 in
set_option maxHeartbeats 2000000 in
theorem stC_v57 (W : Valuation τ sig (Elt F)) : stC W (no_index (Proc.devRef .tc main_v57))
    = layer2 (W (Proc.devRef .tc main_v37)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  unfold stC
  rw [← after_append]
  simp only [opsC1, opsC2, List.cons_append, List.nil_append]
  after_results_simp <;> (try simp only [TRef.ofBuf, TRef.toBuf, cast_eq]) <;> rfl

set_option maxRecDepth 8192 in
set_option maxHeartbeats 2000000 in
theorem stD_v77 (W : Valuation τ sig (Elt F)) : stD W (no_index (Proc.devRef .tc main_v77))
    = layer3 (W (Proc.devRef .tc main_v57)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  unfold stD
  simp only [opsD]
  after_results_simp <;> (try simp only [TRef.ofBuf, TRef.toBuf, cast_eq]) <;> rfl

set_option maxRecDepth 8192 in
set_option maxHeartbeats 2000000 in
theorem stE_v83 (W : Valuation τ sig (Elt F)) : stE W (no_index (Proc.devRef .tc main_v83))
    = head (W (Proc.devRef .tc main_v16)) (W (Proc.devRef .tc main_v77)) (W (Proc.devRef .tc main_arg20)) (W (Proc.devRef .tc main_arg21)) := by
  unfold stE
  simp only [opsE]
  after_results_simp <;> (try simp only [TRef.ofBuf, TRef.toBuf, cast_eq]) <;> rfl

/-! ## The result and the arguments after the whole line -/

/-- The result buffer after the whole line is `refOut` of the argument buffers. -/
theorem out_eq (V : Valuation τ sig (Elt F)) :
    after ops V (main_v83 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) := by
  rw [after_ops]
  simp (disch := decide) only [stE_v83, stD_v77, stC_v57, stB_v37, stA_v16, stA_v17, stA_keep, stB_keep, stC_keep, stD_keep]
  rfl

/-- A buffer no piece writes keeps its contents through the whole line. -/
theorem arg_keep (V : Valuation τ sig (Elt F)) (r : Ref sig .tc) (hA : r ∉ opsA_W) (hB : r ∉ opsB_W) (hC₁ : r ∉ opsC1_W)
    (hC₂ : r ∉ opsC2_W) (hD : r ∉ opsD_W) (hE : r ∉ opsE_W) : after ops V (Proc.devRef .tc r) = V (Proc.devRef .tc r) :=
  (congrFun (after_ops V) _).trans ((stE_keep _ r hE).trans ((stD_keep _ r hD).trans ((stC_keep _ r hC₁ hC₂).trans
    ((stB_keep _ r hB).trans (stA_keep _ r hA)))))

/-- An argument buffer is written by no piece. -/
local macro "kept " r:term : term =>
  `(arg_keep _ $r (by decide) (by decide) (by decide) (by decide) (by decide) (by decide))

/-- On every device, from any memory with zero counters: every weakly fair execution of the reference's @main
    terminates, its result buffer holds `refOut` of the argument arrays, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v83).trans (out_eq _),
      (h c main_arg0).trans (kept main_arg0),
      (h c main_arg1).trans (kept main_arg1),
      (h c main_arg2).trans (kept main_arg2),
      (h c main_arg3).trans (kept main_arg3),
      (h c main_arg4).trans (kept main_arg4),
      (h c main_arg5).trans (kept main_arg5),
      (h c main_arg6).trans (kept main_arg6),
      (h c main_arg7).trans (kept main_arg7),
      (h c main_arg8).trans (kept main_arg8),
      (h c main_arg9).trans (kept main_arg9),
      (h c main_arg10).trans (kept main_arg10),
      (h c main_arg11).trans (kept main_arg11),
      (h c main_arg12).trans (kept main_arg12),
      (h c main_arg13).trans (kept main_arg13),
      (h c main_arg14).trans (kept main_arg14),
      (h c main_arg15).trans (kept main_arg15),
      (h c main_arg16).trans (kept main_arg16),
      (h c main_arg17).trans (kept main_arg17),
      (h c main_arg18).trans (kept main_arg18),
      (h c main_arg19).trans (kept main_arg19),
      (h c main_arg20).trans (kept main_arg20),
      (h c main_arg21).trans (kept main_arg21)⟩)
    (run_seq scopedRefs_eq scopedSems_eq defs main (fun _ => ops) main_eq (fun _ => ops_sub) m ρ (fun _ => ops_fresh))

end Cert.ReferenceIdeal.RefVal

end
-- ==== Proof.RefRead1.lean ====
/-
  The reference's three layers read at one entry: at row `r` and feature `n` each is the row function `layerRow` of
  Spec.lean applied to row `r` of the layer's input. The dense map is the host's dot product read as a sum over the
  contracted axis; the vectors are broadcast along the rows.
-/
import proofs.«137861_j89111981457842_1_alg».proof.Proof.Gen.ReferenceIdeal
import proofs.«137861_j89111981457842_1_alg».proof.Proof.RefDefs
import proofs.«137861_j89111981457842_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.Facts₀ Cert.ReferenceIdeal.Facts Idealize.ShloMosaic Idealize.ShloMosaic.ValueIdx Cert.Mlp

/-! ## Broadcasts read at an entry -/

/-- A vector broadcast along the rows in two steps, `[N] → [1, N] → [R, N]`, read at row `r` and column `n`, is its entry `n`:
    each step reads its operand at the same column, and at `0` on a unit axis. -/
theorem row_apply {α : Type} {R N : ℕ}
    (h1 : (⟨1, ![N]⟩ : Shape).BroadcastsInDim (⟨2, ![1, N]⟩ : Shape) (![1] : Fin 1 → Fin 2))
    (h2 : (⟨2, ![1, N]⟩ : Shape).BroadcastsInDim (⟨2, ![R, N]⟩ : Shape) (![0, 1] : Fin 2 → Fin 2))
    (x : (⟨1, ![N]⟩ : Shape).Idx → α) (r : Fin R) (n : Fin N) :
    broadcastInDim (⟨2, ![R, N]⟩ : Shape) ![0, 1] h2 (broadcastInDim (⟨2, ![1, N]⟩ : Shape) ![1] h1 x) (ix2 r n) = x (ix1 n) := by
  refine (broadcastInDim_apply ![0, 1] h2 _ (ix2 r n) (ix2 (0 : Fin 1) n) (fun a => ?_)).trans ?_
  · match a with
    | ⟨0, _⟩ => rfl
    | ⟨1, _⟩ =>
      show n.val = if N = 1 then 0 else n.val
      split
      · have := n.isLt; omega
      · rfl
  · refine broadcastInDim_apply ![1] h1 x (ix2 (0 : Fin 1) n) (ix1 n) (fun a => ?_)
    match a with
    | ⟨0, _⟩ =>
      show n.val = if N = 1 then 0 else n.val
      split
      · have := n.isLt; omega
      · rfl

/-- A scalar broadcast to any shape reads, at every index, the scalar: the value of its word. -/
theorem splat_apply {S : Shape} (h : S_.BroadcastsInDim S (![] : Fin 0 → Fin S.rank)) (w : BitVec 32) (j : S.Idx) :
    broadcastInDim S ![] h (constant (F := Ideal) S_ .f32 w) j = Ideal.ofBits .f32 w := by
  refine (broadcastInDim_apply ![] h _ j ix0 (fun a => a.elim0)).trans ?_
  rfl

/-! ## The dense maps as sums over the contracted axis -/

/-! The dense map of layer 1: the coordinates of the two operand indices at a result index and a contraction index. -/

theorem lhs1_0 (i : S16384x1024.Idx) (q : dot_S16384x512_S512x1024_S16384x1024_1_0_0_1_n_n.contr.Idx) :
    (dot_S16384x512_S512x1024_S16384x1024_1_0_0_1_n_n.lhsIdx i q 0).val = (i 0).val := by
  unfold DotDims.lhsIdx
  rw [dif_neg (show ¬(0 : Fin S16384x512.rank) ∈ dot_S16384x512_S512x1024_S16384x1024_1_0_0_1_n_n.lhsBatch by decide),
    dif_pos (show (0 : Fin S16384x512.rank) ∈ dot_S16384x512_S512x1024_S16384x1024_1_0_0_1_n_n.lhsNonContracting by decide)]
  rfl

theorem lhs1_1 (i : S16384x1024.Idx) (q : dot_S16384x512_S512x1024_S16384x1024_1_0_0_1_n_n.contr.Idx) :
    (dot_S16384x512_S512x1024_S16384x1024_1_0_0_1_n_n.lhsIdx i q 1).val = (q ⟨0, by decide⟩).val :=
  dot_S16384x512_S512x1024_S16384x1024_1_0_0_1_n_n.lhsIdx_val_of_single rfl i q

theorem rhs1_0 (i : S16384x1024.Idx) (q : dot_S16384x512_S512x1024_S16384x1024_1_0_0_1_n_n.contr.Idx) :
    (dot_S16384x512_S512x1024_S16384x1024_1_0_0_1_n_n.rhsIdx i q 0).val = (q ⟨0, by decide⟩).val :=
  dot_S16384x512_S512x1024_S16384x1024_1_0_0_1_n_n.rhsIdx_val_of_single rfl i q

theorem rhs1_1 (i : S16384x1024.Idx) (q : dot_S16384x512_S512x1024_S16384x1024_1_0_0_1_n_n.contr.Idx) :
    (dot_S16384x512_S512x1024_S16384x1024_1_0_0_1_n_n.rhsIdx i q 1).val = (i 1).val := by
  unfold DotDims.rhsIdx
  rw [dif_neg (show ¬(1 : Fin S512x1024.rank) ∈ dot_S16384x512_S512x1024_S16384x1024_1_0_0_1_n_n.rhsBatch by decide),
    dif_pos (show (1 : Fin S512x1024.rank) ∈ dot_S16384x512_S512x1024_S16384x1024_1_0_0_1_n_n.rhsNonContracting by decide)]
  rfl

/-- The dense map of layer 1 at row `r`, column `n`: the sum over the contracted axis of the products of row `r`
    of the left operand with column `n` of the right one. -/
theorem dot1_apply (lhs : FVec Ideal S16384x512 .f32) (rhs : FVec Ideal S512x1024 .f32) (r : Fin 16384) (n : Fin 1024) :
    Host.dotGeneral (F := Ideal) dot_S16384x512_S512x1024_S16384x1024_1_0_0_1_n_n none lhs rhs (ix2 r n)
      = ∑ k : Fin 512, lhs (ix2 r k) * rhs (ix2 k n) := by
  simp only [Host.dotGeneral]
  rw [Ideal.dotGeneral_apply,
    ← Equiv.sum_comp (ValueIdx.contrEquiv1 dot_S16384x512_S512x1024_S16384x1024_1_0_0_1_n_n 512 rfl rfl).symm]
  refine Finset.sum_congr rfl fun k _ => ?_
  have hk := ValueIdx.contrEquiv1_symm_val dot_S16384x512_S512x1024_S16384x1024_1_0_0_1_n_n 512 rfl rfl k
  have el : dot_S16384x512_S512x1024_S16384x1024_1_0_0_1_n_n.lhsIdx (ix2 r n) ((ValueIdx.contrEquiv1 dot_S16384x512_S512x1024_S16384x1024_1_0_0_1_n_n 512 rfl rfl).symm k) = ix2 r k :=
    funext fun a => Fin.ext (by
      match a with
      | ⟨0, _⟩ => exact lhs1_0 _ _
      | ⟨1, _⟩ => exact (lhs1_1 _ _).trans hk)
  have er : dot_S16384x512_S512x1024_S16384x1024_1_0_0_1_n_n.rhsIdx (ix2 r n) ((ValueIdx.contrEquiv1 dot_S16384x512_S512x1024_S16384x1024_1_0_0_1_n_n 512 rfl rfl).symm k) = ix2 k n :=
    funext fun a => Fin.ext (by
      match a with
      | ⟨0, _⟩ => exact (rhs1_0 _ _).trans hk
      | ⟨1, _⟩ => exact rhs1_1 _ _)
  rw [el, er]

/-! The dense map of layer 2: the coordinates of the two operand indices at a result index and a contraction index. -/

theorem lhs2_0 (i : S16384x512.Idx) (q : dot_S16384x1024_S1024x512_S16384x512_1_0_0_1_n_n.contr.Idx) :
    (dot_S16384x1024_S1024x512_S16384x512_1_0_0_1_n_n.lhsIdx i q 0).val = (i 0).val := by
  unfold DotDims.lhsIdx
  rw [dif_neg (show ¬(0 : Fin S16384x1024.rank) ∈ dot_S16384x1024_S1024x512_S16384x512_1_0_0_1_n_n.lhsBatch by decide),
    dif_pos (show (0 : Fin S16384x1024.rank) ∈ dot_S16384x1024_S1024x512_S16384x512_1_0_0_1_n_n.lhsNonContracting by decide)]
  rfl

theorem lhs2_1 (i : S16384x512.Idx) (q : dot_S16384x1024_S1024x512_S16384x512_1_0_0_1_n_n.contr.Idx) :
    (dot_S16384x1024_S1024x512_S16384x512_1_0_0_1_n_n.lhsIdx i q 1).val = (q ⟨0, by decide⟩).val :=
  dot_S16384x1024_S1024x512_S16384x512_1_0_0_1_n_n.lhsIdx_val_of_single rfl i q

theorem rhs2_0 (i : S16384x512.Idx) (q : dot_S16384x1024_S1024x512_S16384x512_1_0_0_1_n_n.contr.Idx) :
    (dot_S16384x1024_S1024x512_S16384x512_1_0_0_1_n_n.rhsIdx i q 0).val = (q ⟨0, by decide⟩).val :=
  dot_S16384x1024_S1024x512_S16384x512_1_0_0_1_n_n.rhsIdx_val_of_single rfl i q

theorem rhs2_1 (i : S16384x512.Idx) (q : dot_S16384x1024_S1024x512_S16384x512_1_0_0_1_n_n.contr.Idx) :
    (dot_S16384x1024_S1024x512_S16384x512_1_0_0_1_n_n.rhsIdx i q 1).val = (i 1).val := by
  unfold DotDims.rhsIdx
  rw [dif_neg (show ¬(1 : Fin S1024x512.rank) ∈ dot_S16384x1024_S1024x512_S16384x512_1_0_0_1_n_n.rhsBatch by decide),
    dif_pos (show (1 : Fin S1024x512.rank) ∈ dot_S16384x1024_S1024x512_S16384x512_1_0_0_1_n_n.rhsNonContracting by decide)]
  rfl

/-- The dense map of layer 2 at row `r`, column `n`: the sum over the contracted axis of the products of row `r`
    of the left operand with column `n` of the right one. -/
theorem dot2_apply (lhs : FVec Ideal S16384x1024 .f32) (rhs : FVec Ideal S1024x512 .f32) (r : Fin 16384) (n : Fin 512) :
    Host.dotGeneral (F := Ideal) dot_S16384x1024_S1024x512_S16384x512_1_0_0_1_n_n none lhs rhs (ix2 r n)
      = ∑ k : Fin 1024, lhs (ix2 r k) * rhs (ix2 k n) := by
  simp only [Host.dotGeneral]
  rw [Ideal.dotGeneral_apply,
    ← Equiv.sum_comp (ValueIdx.contrEquiv1 dot_S16384x1024_S1024x512_S16384x512_1_0_0_1_n_n 1024 rfl rfl).symm]
  refine Finset.sum_congr rfl fun k _ => ?_
  have hk := ValueIdx.contrEquiv1_symm_val dot_S16384x1024_S1024x512_S16384x512_1_0_0_1_n_n 1024 rfl rfl k
  have el : dot_S16384x1024_S1024x512_S16384x512_1_0_0_1_n_n.lhsIdx (ix2 r n) ((ValueIdx.contrEquiv1 dot_S16384x1024_S1024x512_S16384x512_1_0_0_1_n_n 1024 rfl rfl).symm k) = ix2 r k :=
    funext fun a => Fin.ext (by
      match a with
      | ⟨0, _⟩ => exact lhs2_0 _ _
      | ⟨1, _⟩ => exact (lhs2_1 _ _).trans hk)
  have er : dot_S16384x1024_S1024x512_S16384x512_1_0_0_1_n_n.rhsIdx (ix2 r n) ((ValueIdx.contrEquiv1 dot_S16384x1024_S1024x512_S16384x512_1_0_0_1_n_n 1024 rfl rfl).symm k) = ix2 k n :=
    funext fun a => Fin.ext (by
      match a with
      | ⟨0, _⟩ => exact (rhs2_0 _ _).trans hk
      | ⟨1, _⟩ => exact rhs2_1 _ _)
  rw [el, er]

/-! The dense map of layer 3: the coordinates of the two operand indices at a result index and a contraction index. -/

theorem lhs3_0 (i : S16384x256.Idx) (q : dot_S16384x512_S512x256_S16384x256_1_0_0_1_n_n.contr.Idx) :
    (dot_S16384x512_S512x256_S16384x256_1_0_0_1_n_n.lhsIdx i q 0).val = (i 0).val := by
  unfold DotDims.lhsIdx
  rw [dif_neg (show ¬(0 : Fin S16384x512.rank) ∈ dot_S16384x512_S512x256_S16384x256_1_0_0_1_n_n.lhsBatch by decide),
    dif_pos (show (0 : Fin S16384x512.rank) ∈ dot_S16384x512_S512x256_S16384x256_1_0_0_1_n_n.lhsNonContracting by decide)]
  rfl

theorem lhs3_1 (i : S16384x256.Idx) (q : dot_S16384x512_S512x256_S16384x256_1_0_0_1_n_n.contr.Idx) :
    (dot_S16384x512_S512x256_S16384x256_1_0_0_1_n_n.lhsIdx i q 1).val = (q ⟨0, by decide⟩).val :=
  dot_S16384x512_S512x256_S16384x256_1_0_0_1_n_n.lhsIdx_val_of_single rfl i q

theorem rhs3_0 (i : S16384x256.Idx) (q : dot_S16384x512_S512x256_S16384x256_1_0_0_1_n_n.contr.Idx) :
    (dot_S16384x512_S512x256_S16384x256_1_0_0_1_n_n.rhsIdx i q 0).val = (q ⟨0, by decide⟩).val :=
  dot_S16384x512_S512x256_S16384x256_1_0_0_1_n_n.rhsIdx_val_of_single rfl i q

theorem rhs3_1 (i : S16384x256.Idx) (q : dot_S16384x512_S512x256_S16384x256_1_0_0_1_n_n.contr.Idx) :
    (dot_S16384x512_S512x256_S16384x256_1_0_0_1_n_n.rhsIdx i q 1).val = (i 1).val := by
  unfold DotDims.rhsIdx
  rw [dif_neg (show ¬(1 : Fin S512x256.rank) ∈ dot_S16384x512_S512x256_S16384x256_1_0_0_1_n_n.rhsBatch by decide),
    dif_pos (show (1 : Fin S512x256.rank) ∈ dot_S16384x512_S512x256_S16384x256_1_0_0_1_n_n.rhsNonContracting by decide)]
  rfl

/-- The dense map of layer 3 at row `r`, column `n`: the sum over the contracted axis of the products of row `r`
    of the left operand with column `n` of the right one. -/
theorem dot3_apply (lhs : FVec Ideal S16384x512 .f32) (rhs : FVec Ideal S512x256 .f32) (r : Fin 16384) (n : Fin 256) :
    Host.dotGeneral (F := Ideal) dot_S16384x512_S512x256_S16384x256_1_0_0_1_n_n none lhs rhs (ix2 r n)
      = ∑ k : Fin 512, lhs (ix2 r k) * rhs (ix2 k n) := by
  simp only [Host.dotGeneral]
  rw [Ideal.dotGeneral_apply,
    ← Equiv.sum_comp (ValueIdx.contrEquiv1 dot_S16384x512_S512x256_S16384x256_1_0_0_1_n_n 512 rfl rfl).symm]
  refine Finset.sum_congr rfl fun k _ => ?_
  have hk := ValueIdx.contrEquiv1_symm_val dot_S16384x512_S512x256_S16384x256_1_0_0_1_n_n 512 rfl rfl k
  have el : dot_S16384x512_S512x256_S16384x256_1_0_0_1_n_n.lhsIdx (ix2 r n) ((ValueIdx.contrEquiv1 dot_S16384x512_S512x256_S16384x256_1_0_0_1_n_n 512 rfl rfl).symm k) = ix2 r k :=
    funext fun a => Fin.ext (by
      match a with
      | ⟨0, _⟩ => exact lhs3_0 _ _
      | ⟨1, _⟩ => exact (lhs3_1 _ _).trans hk)
  have er : dot_S16384x512_S512x256_S16384x256_1_0_0_1_n_n.rhsIdx (ix2 r n) ((ValueIdx.contrEquiv1 dot_S16384x512_S512x256_S16384x256_1_0_0_1_n_n 512 rfl rfl).symm k) = ix2 k n :=
    funext fun a => Fin.ext (by
      match a with
      | ⟨0, _⟩ => exact (rhs3_0 _ _).trans hk
      | ⟨1, _⟩ => exact rhs3_1 _ _)
  rw [el, er]

/-! ## The layers at an entry -/

/-- Layer 1 at row `r`, feature `n`: the row function of that row of the input. -/
theorem layer1_apply (h : FVec Ideal S16384x512 .f32) (W : FVec Ideal S512x1024 .f32) (b g be mu v : FVec Ideal S1024 .f32)
    (r : Fin 16384) (n : Fin 1024) :
    layer1 (F := Ideal) h W b g be mu v (ix2 r n)
      = layerRow (fun k => h (ix2 r k)) (fun k n => W (ix2 k n)) (fun n => b (ix1 n)) (fun n => g (ix1 n))
          (fun n => be (ix1 n)) (fun n => mu (ix1 n)) (fun n => v (ix1 n)) n := by
  unfold layer1 layerRow
  -- the pointwise operations at the entry
  simp only [addf_apply, mulf_apply, subf_apply, maximumf_apply]
  -- the five broadcast vectors at their entry `n`, the zero splat, and the dense map as a sum
  rw [row_apply, row_apply, row_apply, row_apply, row_apply, splat_apply, dot1_apply]
  -- the reciprocal square root of the variance plus `ε`, entry by entry; the zero word is `0`
  show _ * _ * FloatOps.hostUnary .rsqrt (addf v _ (ix1 n)) + _ = _
  rw [Ideal.hostUnary_rsqrt_def, addf_apply, splat_apply, Ideal.ofBits_zero_f32]

/-- Layer 2 at row `r`, feature `n`: the row function of that row of the input. -/
theorem layer2_apply (h : FVec Ideal S16384x1024 .f32) (W : FVec Ideal S1024x512 .f32) (b g be mu v : FVec Ideal S512 .f32)
    (r : Fin 16384) (n : Fin 512) :
    layer2 (F := Ideal) h W b g be mu v (ix2 r n)
      = layerRow (fun k => h (ix2 r k)) (fun k n => W (ix2 k n)) (fun n => b (ix1 n)) (fun n => g (ix1 n))
          (fun n => be (ix1 n)) (fun n => mu (ix1 n)) (fun n => v (ix1 n)) n := by
  unfold layer2 layerRow
  -- the pointwise operations at the entry
  simp only [addf_apply, mulf_apply, subf_apply, maximumf_apply]
  -- the five broadcast vectors at their entry `n`, the zero splat, and the dense map as a sum
  rw [row_apply, row_apply, row_apply, row_apply, row_apply, splat_apply, dot2_apply]
  -- the reciprocal square root of the variance plus `ε`, entry by entry; the zero word is `0`
  show _ * _ * FloatOps.hostUnary .rsqrt (addf v _ (ix1 n)) + _ = _
  rw [Ideal.hostUnary_rsqrt_def, addf_apply, splat_apply, Ideal.ofBits_zero_f32]

/-- Layer 3 at row `r`, feature `n`: the row function of that row of the input. -/
theorem layer3_apply (h : FVec Ideal S16384x512 .f32) (W : FVec Ideal S512x256 .f32) (b g be mu v : FVec Ideal S256 .f32)
    (r : Fin 16384) (n : Fin 256) :
    layer3 (F := Ideal) h W b g be mu v (ix2 r n)
      = layerRow (fun k => h (ix2 r k)) (fun k n => W (ix2 k n)) (fun n => b (ix1 n)) (fun n => g (ix1 n))
          (fun n => be (ix1 n)) (fun n => mu (ix1 n)) (fun n => v (ix1 n)) n := by
  unfold layer3 layerRow
  -- the pointwise operations at the entry
  simp only [addf_apply, mulf_apply, subf_apply, maximumf_apply]
  -- the five broadcast vectors at their entry `n`, the zero splat, and the dense map as a sum
  rw [row_apply, row_apply, row_apply, row_apply, row_apply, splat_apply, dot3_apply]
  -- the reciprocal square root of the variance plus `ε`, entry by entry; the zero word is `0`
  show _ * _ * FloatOps.hostUnary .rsqrt (addf v _ (ix1 n)) + _ = _
  rw [Ideal.hostUnary_rsqrt_def, addf_apply, splat_apply, Ideal.ofBits_zero_f32]

end Cert.ReferenceIdeal.RefVal

end
-- ==== Proof.RefRead2.lean ====
/-
  The reference's score and last step read at one entry, and the whole result: `refOut` of the argument arrays is
  `G` of the gathered rows and the weights. The score reads the gathered `[16384, 2, 256]` array directly, the
  layers read it laid out as `[16384, 512]`: entry `(r, a, d)` of the one is entry `(r, 256·a + d)` of the other.
  The dot product with the 257-vector splits into the score's term and the 256 hidden features' terms.
-/
import proofs.«137861_j89111981457842_1_alg».proof.Proof.Gen.ReferenceIdeal
import proofs.«137861_j89111981457842_1_alg».proof.Proof.RefDefs
import proofs.«137861_j89111981457842_1_alg».proof.Proof.RefRead1
import proofs.«137861_j89111981457842_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.Facts₀ Cert.ReferenceIdeal.Facts Idealize.ShloMosaic Idealize.ShloMosaic.ValueIdx Cert.Mlp

/-- A vector `[16384]` set as a column `[16384, 1]` reads, at `(r, u)`, its entry `r`. -/
theorem col_apply (x : FVec Ideal S16384 .f32) (r : Fin 16384) (u : Fin 1) :
    broadcastInDim S16384x1 (![0] : Fin 1 → Fin S16384x1.rank) bcast_S16384_S16384x1_0 x (ix2 r u) = x (ix1 r) := by
  refine broadcastInDim_apply (![0] : Fin 1 → Fin S16384x1.rank) bcast_S16384_S16384x1_0 x (ix2 r u) (ix1 r) (fun a => ?_)
  match a with
  | ⟨0, _⟩ =>
    show r.val = if (16384 : ℕ) = 1 then 0 else r.val
    rw [if_neg (by omega)]

/-- Entry `(r, a, d)` of the gathered array is entry `(r, 256·a + d)` of its `[16384, 512]` layout: both sit at
    row-major position `(2·r + a)·256 + d`. -/
theorem rows_entry (e : FVec Ideal S16384x2x256 .f32) (r : Fin 16384) (a : Fin 2) (d : Fin 256) (j : Fin 512)
    (hj : j.val = 256 * a.val + d.val) :
    shapeCast S16384x512 e shapeCasts_S16384x2x256_S16384x512 (ix2 r j) = e (ix3 r a d) :=
  shapeCast_apply e shapeCasts_S16384x2x256_S16384x512 (ix2 r j) (ix3 r a d) (by
    rw [Shape.rowMajor_val_three, Shape.rowMajor_val_two]
    show (r.val * 2 + a.val) * 256 + d.val = r.val * 512 + j.val
    omega)

/-- One half of the gathered array, cut out along the middle axis at `o` and laid out as `[16384, 256]`: at `(r, d)`
    it is the gathered array at `(r, o, d)`. -/
theorem half_entry (e : FVec Ideal S16384x2x256 .f32) (o : ℕ) (hs : S16384x2x256.Slices ![0, o, 0] S16384x1x256)
    (r : Fin 16384) (a : Fin 2) (ha : a.val = o) (d : Fin 256) :
    shapeCast S16384x256 (extractStridedSlice S16384x1x256 ![0, o, 0] e hs) shapeCasts_S16384x1x256_S16384x256 (ix2 r d)
      = e (ix3 r a d) := by
  refine (shapeCast_apply (extractStridedSlice S16384x1x256 ![0, o, 0] e hs) shapeCasts_S16384x1x256_S16384x256
    (ix2 r d) (ix3 r (0 : Fin 1) d) (by
      rw [Shape.rowMajor_val_three, Shape.rowMajor_val_two]
      show (r.val * 1 + 0) * 256 + d.val = r.val * 256 + d.val
      omega)).trans ?_
  exact slice3_axis1_apply o e hs r (0 : Fin 1) d a (by show a.val = o + 0; omega)

/-- The host's sum along the second axis of a `[16384, 256]` array from the zero word, at row `r`: zero plus the sum of
    the row's 256 entries. -/
theorem rowSum_apply (x : FVec Ideal S16384x256 .f32) (r : Fin 16384) :
    Host.reduceAdd (F := Ideal) x (constant (F := Ideal) S_ .f32 0x00000000#32) reducesTo_S16384x256_S16384_d1 h_S_ (ix1 r)
      = 0 + ∑ d : Fin 256, x (ix2 r d) := by
  simp only [Host.reduceAdd, Ideal.hostReduceAdd_def]
  refine (Ideal.hostReduceAdd_single reducesTo_S16384x256_S16384_d1
    (by decide : S16384x256.Reduces [1] S16384) x _ (ix1 r)).trans ?_
  rw [constant_apply, Ideal.ofBits_zero_f32]
  refine congrArg (fun t => (0 : EReal) + t) ?_
  refine Finset.sum_congr rfl fun d _ => ?_
  refine congrArg x (funext fun a => Fin.ext ?_)
  match a with
  | ⟨0, _⟩ => rfl
  | ⟨1, _⟩ => rfl

/-- The score at row `r`: the inner product of the two halves of row `r` of the `[16384, 512]` layout. -/
theorem score_apply (e : FVec Ideal S16384x2x256 .f32) (r : Fin 16384) (u : Fin 1) :
    score (F := Ideal) e (ix2 r u) = mfRow (fun j => shapeCast S16384x512 e shapeCasts_S16384x2x256_S16384x512 (ix2 r j)) := by
  unfold score mfRow
  -- the column reads the vector of row sums at the row; the sum runs over the 256 entries, from zero
  refine (col_apply _ r u).trans ?_
  refine (rowSum_apply _ r).trans ?_
  rw [zero_add]
  refine Finset.sum_congr rfl fun d _ => ?_
  rw [mulf_apply,
    half_entry e 0 slices_S16384x2x256_S16384x1x256_0_0_0 r (0 : Fin 2) rfl d,
    half_entry e 1 slices_S16384x2x256_S16384x1x256_0_1_0 r (1 : Fin 2) rfl d]
  -- the same two entries in the `[16384, 512]` layout: columns `d` and `256 + d`
  beta_reduce
  rw [rows_entry e r (0 : Fin 2) d ⟨d.val, by have := d.isLt; omega⟩ (by show d.val = 256 * 0 + d.val; omega),
    rows_entry e r (1 : Fin 2) d ⟨256 + d.val, by have := d.isLt; omega⟩ (by show 256 + d.val = 256 * 1 + d.val; omega)]

/-- In the dot product with the 257-vector the left operand is read at the output's row … -/
theorem lhs_dotO_0 (i : S16384x1.Idx) (q : dot_S16384x257_S257x1_S16384x1_1_0_0_1_n_n.contr.Idx) :
    (dot_S16384x257_S257x1_S16384x1_1_0_0_1_n_n.lhsIdx i q 0).val = (i 0).val := by
  unfold DotDims.lhsIdx
  rw [dif_neg (show ¬(0 : Fin S16384x257.rank) ∈ dot_S16384x257_S257x1_S16384x1_1_0_0_1_n_n.lhsBatch by decide),
    dif_pos (show (0 : Fin S16384x257.rank) ∈ dot_S16384x257_S257x1_S16384x1_1_0_0_1_n_n.lhsNonContracting by decide)]
  rfl
/-- … and at the contracted position as its column; -/
theorem lhs_dotO_1 (i : S16384x1.Idx) (q : dot_S16384x257_S257x1_S16384x1_1_0_0_1_n_n.contr.Idx) :
    (dot_S16384x257_S257x1_S16384x1_1_0_0_1_n_n.lhsIdx i q 1).val = (q ⟨0, by decide⟩).val :=
  dot_S16384x257_S257x1_S16384x1_1_0_0_1_n_n.lhsIdx_val_of_single rfl i q
/-- the right operand is read at the contracted position as its row … -/
theorem rhs_dotO_0 (i : S16384x1.Idx) (q : dot_S16384x257_S257x1_S16384x1_1_0_0_1_n_n.contr.Idx) :
    (dot_S16384x257_S257x1_S16384x1_1_0_0_1_n_n.rhsIdx i q 0).val = (q ⟨0, by decide⟩).val :=
  dot_S16384x257_S257x1_S16384x1_1_0_0_1_n_n.rhsIdx_val_of_single rfl i q
/-- … and at the output's column. -/
theorem rhs_dotO_1 (i : S16384x1.Idx) (q : dot_S16384x257_S257x1_S16384x1_1_0_0_1_n_n.contr.Idx) :
    (dot_S16384x257_S257x1_S16384x1_1_0_0_1_n_n.rhsIdx i q 1).val = (i 1).val := by
  unfold DotDims.rhsIdx
  rw [dif_neg (show ¬(1 : Fin S257x1.rank) ∈ dot_S16384x257_S257x1_S16384x1_1_0_0_1_n_n.rhsBatch by decide),
    dif_pos (show (1 : Fin S257x1.rank) ∈ dot_S16384x257_S257x1_S16384x1_1_0_0_1_n_n.rhsNonContracting by decide)]
  rfl

/-- The dot product with the 257-vector at row `r`: the sum over the 257 contracted positions. -/
theorem dotO_apply (lhs : FVec Ideal S16384x257 .f32) (rhs : FVec Ideal S257x1 .f32) (r : Fin 16384) (u : Fin 1) :
    Host.dotGeneral (F := Ideal) dot_S16384x257_S257x1_S16384x1_1_0_0_1_n_n none lhs rhs (ix2 r u)
      = ∑ j : Fin 257, lhs (ix2 r j) * rhs (ix2 j u) := by
  simp only [Host.dotGeneral]
  rw [Ideal.dotGeneral_apply,
    ← Equiv.sum_comp (ValueIdx.contrEquiv1 dot_S16384x257_S257x1_S16384x1_1_0_0_1_n_n 257 rfl rfl).symm]
  refine Finset.sum_congr rfl fun k _ => ?_
  have hk := ValueIdx.contrEquiv1_symm_val dot_S16384x257_S257x1_S16384x1_1_0_0_1_n_n 257 rfl rfl k
  have el : dot_S16384x257_S257x1_S16384x1_1_0_0_1_n_n.lhsIdx (ix2 r u)
      ((ValueIdx.contrEquiv1 dot_S16384x257_S257x1_S16384x1_1_0_0_1_n_n 257 rfl rfl).symm k) = ix2 r k :=
    funext fun a => Fin.ext (by
      match a with
      | ⟨0, _⟩ => exact lhs_dotO_0 _ _
      | ⟨1, _⟩ => exact (lhs_dotO_1 _ _).trans hk)
  have er : dot_S16384x257_S257x1_S16384x1_1_0_0_1_n_n.rhsIdx (ix2 r u)
      ((ValueIdx.contrEquiv1 dot_S16384x257_S257x1_S16384x1_1_0_0_1_n_n 257 rfl rfl).symm k) = ix2 k u :=
    funext fun a => Fin.ext (by
      match a with
      | ⟨0, _⟩ => exact (rhs_dotO_0 _ _).trans hk
      | ⟨1, _⟩ => exact rhs_dotO_1 _ _)
  rw [el, er]

/-- The score column set before the hidden features: column 0 of the `[16384, 257]` array is the score. -/
theorem cat_zero (sc : FVec Ideal S16384x1 .f32) (h3 : FVec Ideal S16384x256 .f32) (r : Fin 16384) :
    concatenate S16384x257 1 [⟨S16384x1, sc⟩, ⟨S16384x256, h3⟩] concatenates_S16384x1_S16384x256_S16384x257_d1
      (ix2 r (0 : Fin 257)) = sc (ix2 r (0 : Fin 1)) :=
  concatenate_pair_apply_left (1 : Fin S16384x257.rank) sc h3 concatenates_S16384x1_S16384x256_S16384x257_d1
    (ix2 r (0 : Fin 257)) rfl (ix2 r (0 : Fin 1)) (fun b => by
      match b with
      | ⟨0, _⟩ => rfl
      | ⟨1, _⟩ => rfl)

/-- Column `k + 1` of the `[16384, 257]` array is hidden feature `k`. -/
theorem cat_succ (sc : FVec Ideal S16384x1 .f32) (h3 : FVec Ideal S16384x256 .f32) (r : Fin 16384) (k : Fin 256) :
    concatenate S16384x257 1 [⟨S16384x1, sc⟩, ⟨S16384x256, h3⟩] concatenates_S16384x1_S16384x256_S16384x257_d1
      (ix2 r (k.succ : Fin 257)) = h3 (ix2 r k) :=
  concatenate_pair_apply_right (1 : Fin S16384x257.rank) sc h3 concatenates_S16384x1_S16384x256_S16384x257_d1
    (ix2 r (k.succ : Fin 257)) rfl rfl (ix2 r k) (fun b hb => by
      match b with
      | ⟨0, _⟩ => rfl
      | ⟨1, _⟩ => exact absurd rfl hb) (by
      show k.val + 1 = (k.succ : Fin 257).val
      rfl)

/-- The one-entry bias broadcast first to `[1, 1]` and then along the rows reads its entry everywhere. -/
theorem bias_apply (bo : FVec Ideal S1 .f32) (r : Fin 16384) (u : Fin 1) :
    broadcastInDim S16384x1 (![0, 1] : Fin 2 → Fin S16384x1.rank) bcast_S1x1_S16384x1_0_1
      (broadcastInDim S1x1 (![1] : Fin 1 → Fin S1x1.rank) bcast_S1_S1x1_1 bo) (ix2 r u) = bo (ix1 (0 : Fin 1)) := by
  refine (broadcastInDim_apply (![0, 1] : Fin 2 → Fin S16384x1.rank) bcast_S1x1_S16384x1_0_1 _ (ix2 r u)
    (ix2 (0 : Fin 1) (0 : Fin 1)) (fun a => ?_)).trans ?_
  · match a with
    | ⟨0, _⟩ => rfl
    | ⟨1, _⟩ => rfl
  · refine broadcastInDim_apply (![1] : Fin 1 → Fin S1x1.rank) bcast_S1_S1x1_1 bo (ix2 (0 : Fin 1) (0 : Fin 1))
      (ix1 (0 : Fin 1)) (fun a => ?_)
    match a with
    | ⟨0, _⟩ => rfl

/-- The zero splat reads `0` everywhere. -/
theorem zero_apply (r : Fin 16384) (u : Fin 1) :
    broadcastInDim S16384x1 (![] : Fin 0 → Fin S16384x1.rank) bcast_S_S16384x1
      (constant (F := Ideal) S_ .f32 0x00000000#32) (ix2 r u) = 0 := by
  refine (broadcastInDim_apply (![] : Fin 0 → Fin S16384x1.rank) bcast_S_S16384x1
    (constant (F := Ideal) S_ .f32 0x00000000#32) (ix2 r u) ix0 (fun a => a.elim0)).trans ?_
  rw [constant_apply, Ideal.ofBits_zero_f32]

/-- The last step at row `r`: the score's term, the hidden features' terms, the bias, the rectifier. -/
theorem head_apply (sc : FVec Ideal S16384x1 .f32) (h3 : FVec Ideal S16384x256 .f32) (Wo : FVec Ideal S257x1 .f32) (bo : FVec Ideal S1 .f32)
    (r : Fin 16384) (u : Fin 1) :
    head (F := Ideal) sc h3 Wo bo (ix2 r u)
      = max ((sc (ix2 r (0 : Fin 1)) * Wo (ix2 (0 : Fin 257) (0 : Fin 1))
            + ∑ k : Fin 256, h3 (ix2 r k) * Wo (ix2 (k.succ : Fin 257) (0 : Fin 1)))
          + bo (ix1 (0 : Fin 1))) 0 := by
  -- the result has one column
  obtain rfl : u = 0 := Subsingleton.elim _ _
  unfold head
  rw [maximumf_apply, addf_apply, zero_apply, bias_apply, dotO_apply]
  -- the 257 terms: the score's, then the 256 hidden features'
  rw [sum_257_split, cat_zero]
  refine congrArg (fun t => max ((sc (ix2 r (0 : Fin 1)) * Wo (ix2 (0 : Fin 257) (0 : Fin 1)) + t) + bo (ix1 (0 : Fin 1))) 0) ?_
  refine Finset.sum_congr rfl fun k _ => ?_
  rw [cat_succ]

/-- The whole network at row `r`, over any gathered array `e`: the last step of the score of `e` and of the three layers of
    the `[16384, 512]` layout of `e` is the row function of row `r` of that layout. Each layer's input row is the layer
    before it read along row `r`, which is that layer's row function. -/
theorem net_apply (e : FVec Ideal S16384x2x256 .f32)
    (a2 : FVec Ideal S512x1024 .f32) (a3 a4 a5 a6 a7 : FVec Ideal S1024 .f32)
    (a8 : FVec Ideal S1024x512 .f32) (a9 a10 a11 a12 a13 : FVec Ideal S512 .f32)
    (a14 : FVec Ideal S512x256 .f32) (a15 a16 a17 a18 a19 : FVec Ideal S256 .f32)
    (a20 : FVec Ideal S257x1 .f32) (a21 : FVec Ideal S1 .f32) (r : Fin 16384) (u : Fin 1) :
    head (F := Ideal) (score e)
        (layer3 (layer2 (layer1 (shapeCast S16384x512 e shapeCasts_S16384x2x256_S16384x512) a2 a3 a4 a5 a6 a7)
          a8 a9 a10 a11 a12 a13) a14 a15 a16 a17 a18 a19) a20 a21 (ix2 r u)
      = outRow (paramsOf a2 a3 a4 a5 a6 a7 a8 a9 a10 a11 a12 a13 a14 a15 a16 a17 a18 a19 a20 a21)
          (fun j => shapeCast S16384x512 e shapeCasts_S16384x2x256_S16384x512 (ix2 r j)) := by
  -- row `r` of each layer is the row function of row `r` of the layer before
  have H1 : (fun k => layer1 (F := Ideal) (shapeCast S16384x512 e shapeCasts_S16384x2x256_S16384x512) a2 a3 a4 a5 a6 a7 (ix2 r k))
      = hidden1 (paramsOf a2 a3 a4 a5 a6 a7 a8 a9 a10 a11 a12 a13 a14 a15 a16 a17 a18 a19 a20 a21)
          (fun j => shapeCast S16384x512 e shapeCasts_S16384x2x256_S16384x512 (ix2 r j)) :=
    funext fun k => layer1_apply _ a2 a3 a4 a5 a6 a7 r k
  have H2 : (fun k => layer2 (F := Ideal) (layer1 (shapeCast S16384x512 e shapeCasts_S16384x2x256_S16384x512) a2 a3 a4 a5 a6 a7)
        a8 a9 a10 a11 a12 a13 (ix2 r k))
      = hidden2 (paramsOf a2 a3 a4 a5 a6 a7 a8 a9 a10 a11 a12 a13 a14 a15 a16 a17 a18 a19 a20 a21)
          (fun j => shapeCast S16384x512 e shapeCasts_S16384x2x256_S16384x512 (ix2 r j)) :=
    funext fun k => by
      rw [layer2_apply, H1]
      rfl
  have H3 : ∀ k : Fin 256, layer3 (F := Ideal) (layer2 (layer1 (shapeCast S16384x512 e shapeCasts_S16384x2x256_S16384x512) a2 a3 a4 a5 a6 a7)
        a8 a9 a10 a11 a12 a13) a14 a15 a16 a17 a18 a19 (ix2 r k)
      = hidden3 (paramsOf a2 a3 a4 a5 a6 a7 a8 a9 a10 a11 a12 a13 a14 a15 a16 a17 a18 a19 a20 a21)
          (fun j => shapeCast S16384x512 e shapeCasts_S16384x2x256_S16384x512 (ix2 r j)) k :=
    fun k => by
      rw [layer3_apply, H2]
      rfl
  rw [head_apply, score_apply]
  unfold outRow
  refine congrArg (fun t => max ((mfRow (fun j => shapeCast S16384x512 e shapeCasts_S16384x2x256_S16384x512 (ix2 r j))
      * a20 (ix2 (0 : Fin 257) (0 : Fin 1)) + t) + a21 (ix1 (0 : Fin 1))) 0) ?_
  refine Finset.sum_congr rfl fun k _ => ?_
  rw [H3 k]
  rfl

/-- The reference's result is `G` of the gathered rows and the weights. -/
theorem refOut_eq (a0 : IVec S16384x2 32) (a1 : FVec Ideal S200000x256 .f32)
    (a2 : FVec Ideal S512x1024 .f32) (a3 a4 a5 a6 a7 : FVec Ideal S1024 .f32)
    (a8 : FVec Ideal S1024x512 .f32) (a9 a10 a11 a12 a13 : FVec Ideal S512 .f32)
    (a14 : FVec Ideal S512x256 .f32) (a15 a16 a17 a18 a19 : FVec Ideal S256 .f32)
    (a20 : FVec Ideal S257x1 .f32) (a21 : FVec Ideal S1 .f32) :
    refOut (F := Ideal) a0 a1 a2 a3 a4 a5 a6 a7 a8 a9 a10 a11 a12 a13 a14 a15 a16 a17 a18 a19 a20 a21
      = G (rows (F := Ideal) a0 a1) (paramsOf a2 a3 a4 a5 a6 a7 a8 a9 a10 a11 a12 a13 a14 a15 a16 a17 a18 a19 a20 a21) := by
  funext i
  obtain ⟨r, u, rfl⟩ : ∃ (r : Fin 16384) (u : Fin 1), i = ix2 r u := ⟨i 0, i 1, eq_ix2 i⟩
  unfold refOut G rows
  exact net_apply (gathered (F := Ideal) a0 a1) a2 a3 a4 a5 a6 a7 a8 a9 a10 a11 a12 a13 a14 a15 a16 a17 a18 a19 a20 a21 r u

end Cert.ReferenceIdeal.RefVal

end
-- ==== Proof.lean ====
/-
  The kernel computes, for each of 16384 batch rows, a neural matrix-factorisation score: the row's user and item
  embeddings are gathered from one table; their inner product is the factorisation term; their concatenation
  passes through three layers (dense map, rectifier, normalisation by running statistics); and the answer is the
  rectified sum of the factorisation term times one weight, the third layer's output against 256 more weights, and
  a bias. The kernel does this on blocks of 512 rows with the weights resident, its matrix products on operands
  narrowed to bfloat16; the reference does it on the whole batch, and forms the last sum as ONE dot product of the
  concatenation [score, features] with a 257-vector.

  Over the extended reals a change of float format is the identity, a matrix product into a zero accumulator is the
  plain sum over the contracted axis, and a lane reduction is the sum over the lanes; so both programs compute, row
  by row, the function `outRow` of Spec.lean. The one rearrangement between them is that a sum over 257 terms is
  its first term plus the sum of the other 256, which holds in any commutative monoid: no finiteness of the inputs
  is used anywhere.

  The two idealized programs' results are both `G` of the gathered rows and the weights (KerFinal.lean for the
  kernel: from each grid point's block to the whole array; RefRun.lean and RefRead2.lean for the reference: its run
  and its result read row by row). The gathered rows are the same host operations in both programs.
-/
import proofs.«137861_j89111981457842_1_alg».proof.Defs
import proofs.«137861_j89111981457842_1_alg».proof.Proof.Gen.Kernel
import proofs.«137861_j89111981457842_1_alg».proof.Proof.Gen.Kernel.Skeleton
import proofs.«137861_j89111981457842_1_alg».proof.Proof.Gen.Kernel.Launch
import proofs.«137861_j89111981457842_1_alg».proof.Proof.Gen.Kernel.Points
import proofs.«137861_j89111981457842_1_alg».proof.Proof.Gen.Kernel.Frame
import proofs.«137861_j89111981457842_1_alg».proof.Proof.Gen.KernelIdeal
import proofs.«137861_j89111981457842_1_alg».proof.Proof.Gen.KernelIdeal.Skeleton
import proofs.«137861_j89111981457842_1_alg».proof.Proof.Gen.KernelIdeal.Launch
import proofs.«137861_j89111981457842_1_alg».proof.Proof.Gen.KernelIdeal.Points
import proofs.«137861_j89111981457842_1_alg».proof.Proof.Gen.KernelIdeal.Frame
import proofs.«137861_j89111981457842_1_alg».proof.Proof.Gen.KernelIdeal.Value
import proofs.«137861_j89111981457842_1_alg».proof.Proof.Gen.ReferenceIdeal
import proofs.«137861_j89111981457842_1_alg».proof.Proof.Gen.Pre_finite_inputs
import proofs.«137861_j89111981457842_1_alg».proof.Proof.Spec
import proofs.«137861_j89111981457842_1_alg».proof.Proof.KerDefs
import proofs.«137861_j89111981457842_1_alg».proof.Proof.KerFinal
import proofs.«137861_j89111981457842_1_alg».proof.Proof.RefDefs
import proofs.«137861_j89111981457842_1_alg».proof.Proof.RefRun
import proofs.«137861_j89111981457842_1_alg».proof.Proof.RefRead2
import Idealize.ShloMosaic.Adequacy
import Idealize.ShloMosaic.Init

noncomputable section

namespace Cert.Proof

open Idealize.ShloMosaic Idealize.SL.Sem

/-- The gathered embedding rows are the same function of the index array and the table in both programs: the same
    host operations, each program spelling the shapes' side conditions with its own witnesses. -/
theorem rows_eq (x : IVec Cert.KernelIdeal.S16384x2 32) (emb : FVec Ideal Cert.KernelIdeal.S200000x256 .f32) :
    Cert.KernelIdeal.KerVal.rows (F := Ideal) x emb = Cert.ReferenceIdeal.RefVal.rows (F := Ideal) x emb := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefVal.run (F := Ideal) m ρ)

/-- The idealization rewrote no operation. -/
theorem preserves : Cert.preserves_Kernel_KernelIdeal := trivial

/-- Both runs end with the result array at `G` of the gathered rows and the weights: the kernel's by KerFinal.lean,
    the reference's by its run and `refOut_eq`; the arguments agree by hypothesis and the gathered rows by `rows_eq`. -/
theorem algebraic : Cert.algebraic_KernelIdeal_ReferenceIdeal := by
  intro m ρ m' ρ' _ hagree
  refine ⟨_, Cert.KernelIdeal.KerVal.run m ρ, ?_⟩
  refine (θ_run Cert.ReferenceIdeal.defs _ _).mono (fun _ h c => ⟨(h c).1.trans ?_, (h c).2⟩)
    (Cert.ReferenceIdeal.RefVal.run (F := Ideal) m' ρ')
  obtain ⟨h0, h1, h2, h3, h4, h5, h6, h7, h8, h9, h10, h11, h12, h13, h14, h15, h16, h17, h18, h19, h20, h21⟩ := hagree c
  refine (Cert.ReferenceIdeal.RefVal.refOut_eq _ _ _ _ _ _ _ _ _ _ _ _ _ _ _ _ _ _ _ _ _ _).trans ?_
  rw [h0, h1, h2, h3, h4, h5, h6, h7, h8, h9, h10, h11, h12, h13, h14, h15, h16, h17, h18, h19, h20, h21]
  exact congrArg (fun R => Cert.Mlp.G R _) (rows_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
